-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4194304 : Shape := ⟨1, ![4194304]⟩
abbrev S512x64 : Shape := ⟨2, ![512, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4194304 : S_.BroadcastsInDim S4194304 (![] : Fin 0 → Fin S4194304.rank)
  reducesTo_S4194304_S_d0 : S4194304.ReducesTo [0] S_
  bcast_S_S512x64 : S_.BroadcastsInDim S512x64 (![] : Fin 0 → Fin S512x64.rank)
  reducesTo_S512x64_S_d0_1 : S512x64.ReducesTo [0, 1] S_

variable [Facts]

def fn {F : FTy → Type} [FloatOps F] (main_arg0 : FVec F S8192x2048 .f32) (main_arg1 : FVec F S4194304 .f32) (main_arg2 : FVec F S512x64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  main_v13
-- ==== Kernel.lean ====
abbrev S8192x2048 : Shape := ⟨2, ![8192, 2048]⟩
abbrev S4194304 : Shape := ⟨1, ![4194304]⟩
abbrev S512x64 : Shape := ⟨2, ![512, 64]⟩
abbrev S65536x64 : Shape := ⟨2, ![65536, 64]⟩
abbrev S2048x64 : Shape := ⟨2, ![2048, 64]⟩
abbrev S512 : Shape := ⟨1, ![512]⟩
abbrev S1x512 : Shape := ⟨2, ![1, 512]⟩
abbrev S64x512 : Shape := ⟨2, ![64, 512]⟩
abbrev S2048x512 : Shape := ⟨2, ![2048, 512]⟩
abbrev S2048 : Shape := ⟨1, ![2048]⟩
abbrev S2048x1 : Shape := ⟨2, ![2048, 1]⟩
abbrev S2048x2048 : Shape := ⟨2, ![2048, 2048]⟩
abbrev S512x2048 : Shape := ⟨2, ![512, 2048]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S4194304, .f32⟩
  | .hbm, ⟨2, _⟩ => ⟨S512x64, .f32⟩
  | .hbm, ⟨3, _⟩ => ⟨S65536x64, .f32⟩
  | .hbm, ⟨4, _⟩ => ⟨S65536x64, .bf16⟩
  | .hbm, ⟨5, _⟩ => ⟨S2048x2048, .bf16⟩
  | .hbm, ⟨6, _⟩ => ⟨S8192x2048, .bf16⟩
  | .hbm, ⟨7, _⟩ => ⟨S8192x2048, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S2048x64, .bf16⟩
  | .local _ .vmem, ⟨4, _⟩ => ⟨S2048x64, .bf16⟩
  | .local _ .vmem, ⟨5, _⟩ => ⟨S512x2048, .bf16⟩
  | .local _ .vmem, ⟨6, _⟩ => ⟨S512x2048, .bf16⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S4194304_S65536x64 : S4194304.ShapeCasts S65536x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S1x512 : S512.ShapeCasts S1x512
  transposes_S512x64_p1_0_S64x512 : S512x64.Transposes [1, 0] S64x512
  broadcasts_S1x512_S2048x512 : S1x512.Broadcasts S2048x512
  reduces_S2048x512_S2048 : S2048x512.Reduces [1] S2048
  shapeCasts_S2048_S2048x1 : S2048.ShapeCasts S2048x1
  broadcasts_S2048x1_S2048x512 : S2048x1.Broadcasts S2048x512
  bitsLt_bf16_f32 : FTy.bits .bf16 < FTy.bits .f32
  broadcasts_S2048x1_S2048x64 : S2048x1.Broadcasts S2048x64
  packedbf16_S2048x64_S2048x64_0_0 : (Rect.unit (s := S2048x64) ![0, 0] S2048x64.size inb_S2048x64_S2048x64_0_0).PackedRows (EltTy.packing .bf16)
  shapeCasts_S65536x64_S2048x2048 : S65536x64.ShapeCasts S2048x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S2048x64_S64x512_S2048x512_1_0_0_1_n_n_wf : DotDims.WF S2048x64 S64x512 S2048x512 [1] [0] [0] [1] [] []
  dot_S2048x512_S512x64_S2048x64_1_0_0_1_n_n_wf : DotDims.WF S2048x512 S512x64 S2048x64 [1] [0] [0] [1] [] []
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S65536x64.size a
  hwx0_2 : ∀ i : grid0.Coords, EltTy.bits .bf16 = 32 ∨ (Rect.block (s := S65536x64) S2048x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .bf16 = 32 ∨ (Rect.block (s := S8192x2048) S512x2048.size (cc1_transform_0 i) (hinb1_0 i)).WholeWords (EltTy.packing .bf16)
  hstage1_1 : ∀ j, (stage1_1 j).IsWhole
  nbuf1_1 : grid1.bufCount reads1_1 false = 1
  hreads1_1 : ∀ i i' : grid1.Coords, (∀ a, reads1_1 a = true → i a = i' a) → cc1_transform_1 i = cc1_transform_1 i'
  hinb1_1 : ∀ (i : grid1.Coords) a, (cc1_transform_1 i a + 1) * S2048x2048.size a ≤ S2048x2048.size a
  hwx1_1 : ∀ i : grid1.Coords, EltTy.bits .bf16 = 32 ∨ (Rect.block (s := S2048x2048) S2048x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S8192x2048.size a
  hwx1_2 : ∀ i : grid1.Coords, EltTy.bits .f32 = 32 ∨ (Rect.block (s := S8192x2048) S512x2048.size (cc1_transform_2 i) (hinb1_2 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x64_S2048x64_1_0_0_1_n_n : DotDims S2048x512 S512x64 S2048x64 where
  lhsContracting := [1]
  rhsContracting := [0]
  lhsNonContracting := [0]
  rhsNonContracting := [1]
  lhsBatch := []
  rhsBatch := []
  wf := dot_S2048x512_S512x64_S2048x64_1_0_0_1_n_n_wf
def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S2048x2048.size cc1_transform_1 reads1_1 false false 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S512x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x2048 : Shape := ⟨2, ![8192, 2048]⟩
abbrev S4194304 : Shape := ⟨1, ![4194304]⟩
abbrev S512x64 : Shape := ⟨2, ![512, 64]⟩
abbrev S65536x64 : Shape := ⟨2, ![65536, 64]⟩
abbrev S_ : Shape := ⟨0, ![]⟩
abbrev S65536 : Shape := ⟨1, ![65536]⟩
abbrev S65536x1 : Shape := ⟨2, ![65536, 1]⟩
abbrev S64x512 : Shape := ⟨2, ![64, 512]⟩
abbrev S65536x512 : Shape := ⟨2, ![65536, 512]⟩
abbrev S512 : Shape := ⟨1, ![512]⟩
abbrev S1x512 : Shape := ⟨2, ![1, 512]⟩
abbrev S2048x2048 : Shape := ⟨2, ![2048, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4194304, .f32⟩
  | .hbm, ⟨2, _⟩ => ⟨S512x64, .f32⟩
  | .hbm, ⟨3, _⟩ => ⟨S65536x64, .f32⟩
  | .hbm, ⟨4, _⟩ => ⟨S65536x64, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S64x512, .f32⟩
  | .hbm, ⟨9, _⟩ => ⟨S65536x512, .f32⟩
  | .hbm, ⟨10, _⟩ => ⟨S_, .f32⟩
  | .hbm, ⟨11, _⟩ => ⟨S65536x512, .f32⟩
  | .hbm, ⟨12, _⟩ => ⟨S65536x512, .f32⟩
  | .hbm, ⟨13, _⟩ => ⟨S65536x512, .f32⟩
  | .hbm, ⟨14, _⟩ => ⟨S65536x512, .f32⟩
  | .hbm, ⟨15, _⟩ => ⟨S512x64, .f32⟩
  | .hbm, ⟨16, _⟩ => ⟨S_, .f32⟩
  | .hbm, ⟨17, _⟩ => ⟨S512, .f32⟩
  | .hbm, ⟨18, _⟩ => ⟨S1x512, .f32⟩
  | .hbm, ⟨19, _⟩ => ⟨S65536x512, .f32⟩
  | .hbm, ⟨20, _⟩ => ⟨S65536x512, .f32⟩
  | .hbm, ⟨21, _⟩ => ⟨S65536x512, .f32⟩
  | .hbm, ⟨22, _⟩ => ⟨S_, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536, .f32⟩
  | .hbm, ⟨27, _⟩ => ⟨S_, .f32⟩
  | .hbm, ⟨28, _⟩ => ⟨S65536, .f32⟩
  | .hbm, ⟨29, _⟩ => ⟨S65536, .f32⟩
  | .hbm, ⟨30, _⟩ => ⟨S65536x1, .f32⟩
  | .hbm, ⟨31, _⟩ => ⟨S65536x512, .f32⟩
  | .hbm, ⟨32, _⟩ => ⟨S65536x512, .f32⟩
  | .hbm, ⟨33, _⟩ => ⟨S65536x512, .f32⟩
  | .hbm, ⟨34, _⟩ => ⟨S_, .f32⟩
  | .hbm, ⟨35, _⟩ => ⟨S65536, .f32⟩
  | .hbm, ⟨36, _⟩ => ⟨S65536x1, .f32⟩
  | .hbm, ⟨37, _⟩ => ⟨S65536x512, .f32⟩
  | .hbm, ⟨38, _⟩ => ⟨S65536x512, .f32⟩
  | .hbm, ⟨39, _⟩ => ⟨S65536x64, .f32⟩
  | .hbm, ⟨40, _⟩ => ⟨S4194304, .f32⟩
  | .hbm, ⟨41, _⟩ => ⟨S2048x2048, .f32⟩
  | .hbm, ⟨42, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]

class Facts₀ : Prop where
  shapeCasts_S4194304_S65536x64 : S4194304.ShapeCasts S65536x64
  reducesTo_S65536x64_S65536_d1 : S65536x64.ReducesTo [1] S65536
  h_S_ : 0 < S_.numel
  bcast_S65536_S65536x1_0 : S65536.BroadcastsInDim S65536x1 (![0] : Fin 1 → Fin S65536x1.rank)
  transposes_S512x64_S64x512_1_0 : S512x64.Transposes [1, 0] S64x512
  bcast_S_S65536x512 : S_.BroadcastsInDim S65536x512 (![] : Fin 0 → Fin S65536x512.rank)
  bcast_S65536x1_S65536x512_0_1 : S65536x1.BroadcastsInDim S65536x512 (![0, 1] : Fin 2 → Fin S65536x512.rank)
  reducesTo_S512x64_S512_d1 : S512x64.ReducesTo [1] S512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  bcast_S_S65536 : S_.BroadcastsInDim S65536 (![] : Fin 0 → Fin S65536.rank)
  shapeCasts_S65536x64_S4194304 : S65536x64.ShapeCasts S4194304
  shapeCasts_S4194304_S2048x2048 : S4194304.ShapeCasts S2048x2048
  dot_S65536x64_S64x512_S65536x512_1_0_0_1_n_n_wf : DotDims.WF S65536x64 S64x512 S65536x512 [1] [0] [0] [1] [] []
  dot_S65536x512_S512x64_S65536x64_1_0_0_1_n_n_wf : DotDims.WF S65536x512 S512x64 S65536x64 [1] [0] [0] [1] [] []
  dot_S8192x2048_S2048x2048_S8192x2048_1_0_0_1_n_n_wf : DotDims.WF S8192x2048 S2048x2048 S8192x2048 [1] [0] [0] [1] [] []

variable [Facts₀]

def dot_S65536x64_S64x512_S65536x512_1_0_0_1_n_n : DotDims S65536x64 S64x512 S65536x512 where
  lhsContracting := [1]
  rhsContracting := [0]
  lhsNonContracting := [0]
  rhsNonContracting := [1]
  lhsBatch := []
  rhsBatch := []
  wf := dot_S65536x64_S64x512_S65536x512_1_0_0_1_n_n_wf
def dot_S65536x512_S512x64_S65536x64_1_0_0_1_n_n : DotDims S65536x512 S512x64 S65536x64 where
  lhsContracting := [1]
  rhsContracting := [0]
  lhsNonContracting := [0]
  rhsNonContracting := [1]
  lhsBatch := []
  rhsBatch := []
  wf := dot_S65536x512_S512x64_S65536x64_1_0_0_1_n_n_wf
def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.Spec.lean ====
/-
  The soft vector quantizer over the reals.

  A group `z g` of `D` parameters is compared with `K` centroids `c k`. The squared distance
  ‖z g − c k‖² = ‖z g‖² − 2 ⟨z g, c k⟩ + ‖c k‖² enters a softmax over `k` of its negative. The term ‖z g‖²
  does not depend on `k`, so it cancels between a logit and the row's maximum: the softmax of
  2 ⟨z g, c k⟩ − ‖c k‖² is the same weights. The quantized group is the weights' combination of the
  centroids; normalising before or after the combination is the same, the normaliser being a positive real.
  Both forms are written here over abstract finite index types, and proved equal.
-/
import Mathlib.Analysis.SpecialFunctions.Exp
import Mathlib.Data.EReal.Basic
import Mathlib.Algebra.BigOperators.Field
import Mathlib.Order.Lattice
import Mathlib.Tactic.Ring
import Mathlib.Tactic.Linarith
import Mathlib.Tactic.FieldSimp

noncomputable section

namespace Cert.Spec

open scoped BigOperators

variable {G K D : Type} [Fintype K] [Fintype D] [Nonempty K]

/-- ‖c k‖². -/
def csq (c : K → D → ℝ) (k : K) : ℝ := ∑ d, c k d * c k d
/-- ‖z g‖². -/
def zsq (z : G → D → ℝ) (g : G) : ℝ := ∑ d, z g d * z g d
/-- ⟨z g, c k⟩. -/
def zc (z : G → D → ℝ) (c : K → D → ℝ) (g : G) (k : K) : ℝ := ∑ d, z g d * c k d

/-! ### The form without ‖z g‖² -/

/-- The logit 2 ⟨z g, c k⟩ − ‖c k‖², times the reciprocal temperature 1. -/
def logit (z : G → D → ℝ) (c : K → D → ℝ) (g : G) (k : K) : ℝ := (2 * zc z c g k - csq c k) * 1
/-- The largest logit of a row. -/
def rowMax (z : G → D → ℝ) (c : K → D → ℝ) (g : G) : ℝ := Finset.univ.sup' Finset.univ_nonempty (logit z c g)
/-- The shifted exponential. -/
def ex (z : G → D → ℝ) (c : K → D → ℝ) (g : G) (k : K) : ℝ := Real.exp (logit z c g k - rowMax z c g)
/-- The normaliser. -/
def den (z : G → D → ℝ) (c : K → D → ℝ) (g : G) : ℝ := ∑ k, ex z c g k
/-- The quantized group: the exponentials' combination of the centroids, normalised afterwards. -/
def quant (z : G → D → ℝ) (c : K → D → ℝ) (g : G) (d : D) : ℝ := (∑ k, ex z c g k * c k d) / den z c g

/-- The normaliser is positive: every term is. -/
theorem den_pos (z : G → D → ℝ) (c : K → D → ℝ) (g : G) : 0 < den z c g :=
  Finset.sum_pos (fun k _ => Real.exp_pos _) Finset.univ_nonempty

/-! ### The form with the whole squared distance -/

/-- The logit −(‖z g‖² − 2 ⟨z g, c k⟩ + ‖c k‖²) / 1. -/
def rlogit (z : G → D → ℝ) (c : K → D → ℝ) (g : G) (k : K) : ℝ := -((zsq z g - 2 * zc z c g k) + csq c k) / 1
/-- The largest such logit of a row. -/
def rrowMax (z : G → D → ℝ) (c : K → D → ℝ) (g : G) : ℝ := Finset.univ.sup' Finset.univ_nonempty (rlogit z c g)
/-- The shifted exponential. -/
def rex (z : G → D → ℝ) (c : K → D → ℝ) (g : G) (k : K) : ℝ := Real.exp (rlogit z c g k - rrowMax z c g)
/-- The normaliser. -/
def rden (z : G → D → ℝ) (c : K → D → ℝ) (g : G) : ℝ := ∑ k, rex z c g k
/-- The quantized group: the normalised weights' combination of the centroids. -/
def rquant (z : G → D → ℝ) (c : K → D → ℝ) (g : G) (d : D) : ℝ := ∑ k, rex z c g k / rden z c g * c k d

/-- The two logits differ by ‖z g‖², whatever the centroid. -/
theorem rlogit_eq (z : G → D → ℝ) (c : K → D → ℝ) (g : G) (k : K) : rlogit z c g k = logit z c g k - zsq z g := by
  unfold rlogit logit; ring

/-- So do the two maxima. -/
theorem rrowMax_eq (z : G → D → ℝ) (c : K → D → ℝ) (g : G) : rrowMax z c g = rowMax z c g - zsq z g := by
  unfold rrowMax rowMax
  apply le_antisymm
  · refine Finset.sup'_le _ _ fun k _ => ?_
    rw [rlogit_eq]
    exact sub_le_sub_right (Finset.le_sup' (logit z c g) (Finset.mem_univ k)) _
  · rw [sub_le_iff_le_add]
    refine Finset.sup'_le _ _ fun k _ => ?_
    have h := Finset.le_sup' (rlogit z c g) (Finset.mem_univ k)
    rw [rlogit_eq] at h
    linarith

/-- The shifted exponentials agree: ‖z g‖² cancels. -/
theorem rex_eq (z : G → D → ℝ) (c : K → D → ℝ) (g : G) (k : K) : rex z c g k = ex z c g k := by
  unfold rex ex; rw [rlogit_eq, rrowMax_eq]; congr 1; ring

/-- The normalisers agree. -/
theorem rden_eq (z : G → D → ℝ) (c : K → D → ℝ) (g : G) : rden z c g = den z c g := by
  unfold rden den; exact Finset.sum_congr rfl fun k _ => rex_eq z c g k

/-- The two quantizers are one function. -/
theorem rquant_eq_quant (z : G → D → ℝ) (c : K → D → ℝ) (g : G) (d : D) : rquant z c g d = quant z c g d := by
  unfold rquant quant
  rw [rden_eq, Finset.sum_div]
  refine Finset.sum_congr rfl fun k _ => ?_
  rw [rex_eq]; ring

/-- Rows are quantized independently: re-indexing the groups commutes with the quantizer. -/
theorem quant_comp {G' : Type} (f : G' → G) (z : G → D → ℝ) (c : K → D → ℝ) (g : G') (d : D) :
    quant (fun g' => z (f g')) c g d = quant z c (f g) d := rfl

/-! ### Maxima of real numbers inside the extended reals -/

/-- Folding `max` from `-∞` over coercions of reals, over a nonempty finite set, gives the coercion of the
    real maximum. -/
theorem fold_max_bot_coe' {ι : Type} (s : Finset ι) (hs : s.Nonempty) (f : ι → ℝ) :
    s.fold max (⊥ : EReal) (fun k => ((f k : ℝ) : EReal)) = ((s.sup' hs f : ℝ) : EReal) := by
  classical
  induction hs using Finset.Nonempty.cons_induction with
  | singleton a =>
    rw [Finset.fold_singleton, Finset.sup'_singleton]
    exact max_eq_left bot_le
  | cons a s ha hs ih =>
    rw [Finset.fold_cons, ih, Finset.sup'_cons hs]
    exact (EReal.coe_strictMono.monotone.map_max (a := f a) (b := s.sup' hs f)).symm

/-- The same over a whole nonempty finite type. -/
theorem fold_max_bot_coe (f : K → ℝ) :
    (Finset.univ : Finset K).fold max (⊥ : EReal) (fun k => ((f k : ℝ) : EReal))
      = ((Finset.univ.sup' Finset.univ_nonempty f : ℝ) : EReal) :=
  fold_max_bot_coe' _ _ f

end Cert.Spec

end
-- ==== Proof.LibERealArith.lean ====
/-
  Extended-real arithmetic on REAL inputs, moved into ℝ.

  At the ideal reading every float is an extended real and every float operation is the exact operation on
  [-∞, +∞]. When every operand is (the coercion of) a real number, each such operation answers the coercion of
  the corresponding real operation; the lemmas below say so, operation by operation, with the extended-real
  form on the LEFT, so that rewriting with them pushes a whole expression under one coercion, where `ring`,
  `field_simp` and the `Finset` algebra of ℝ apply. The float literals the two programs spell are evaluated
  here once, as real numbers.
-/
import Idealize.ShloMosaic.PureOps.Ideal
import Idealize.ShloMosaic.PureOps.Ideal.Laws
import Mathlib.Data.EReal.Basic
import Mathlib.Data.EReal.Operations
import Mathlib.Data.EReal.Inv
import Mathlib.Algebra.BigOperators.Group.Finset.Basic
import Mathlib.Tactic.NormNum
import Mathlib.Tactic.Ring
import Mathlib.Tactic.Linarith

noncomputable section

namespace Cert.Lib.ERealArith

open Idealize.ShloMosaic
open scoped BigOperators

/-! ### Sums, products, differences, maxima of coercions -/

/-- A finite sum of coercions is the coercion of the real sum. -/
theorem sum_coe {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- `sum_coe` over a whole finite type. -/
theorem univ_sum_coe {ι : Type*} [Fintype ι] (f : ι → ℝ) :
    (∑ i, ((f i : ℝ) : EReal)) = ((∑ i, f i : ℝ) : EReal) := sum_coe _ f

/-- A finite sum whose every term is known to be a coercion is the coercion of the real sum. -/
theorem sum_eq_coe {ι : Type*} (s : Finset ι) (g : ι → EReal) (f : ι → ℝ) (h : ∀ i ∈ s, g i = ((f i : ℝ) : EReal)) :
    (∑ i ∈ s, g i) = ((∑ i ∈ s, f i : ℝ) : EReal) := by
  rw [Finset.sum_congr rfl h, sum_coe]

/-- The sum of two coercions. -/
theorem add_coe (a b : ℝ) : (a : EReal) + (b : EReal) = ((a + b : ℝ) : EReal) := (EReal.coe_add a b).symm

/-- The difference of two coercions. -/
theorem sub_coe (a b : ℝ) : (a : EReal) - (b : EReal) = ((a - b : ℝ) : EReal) := (EReal.coe_sub a b).symm

/-- The product of two coercions. -/
theorem mul_coe (a b : ℝ) : (a : EReal) * (b : EReal) = ((a * b : ℝ) : EReal) := (EReal.coe_mul a b).symm

/-- The negative of a coercion. -/
theorem neg_coe (a : ℝ) : -(a : EReal) = ((-a : ℝ) : EReal) := (EReal.coe_neg a).symm

/-- The maximum of two coercions. -/
theorem max_coe (a b : ℝ) : max (a : EReal) (b : EReal) = ((max a b : ℝ) : EReal) := (EReal.coe_strictMono.monotone.map_max (a := a) (b := b)).symm

/-- The minimum of two coercions. -/
theorem min_coe (a b : ℝ) : min (a : EReal) (b : EReal) = ((min a b : ℝ) : EReal) := (EReal.coe_strictMono.monotone.map_min (a := a) (b := b)).symm

/-- The extended zero is the coercion of the real zero. -/
theorem zero_eq_coe : (0 : EReal) = ((0 : ℝ) : EReal) := EReal.coe_zero.symm
/-- The extended one is the coercion of the real one. -/
theorem one_eq_coe : (1 : EReal) = ((1 : ℝ) : EReal) := EReal.coe_one.symm

/-- A coercion is not `+∞`. -/
theorem coe_ne_top' (a : ℝ) : (a : EReal) ≠ ⊤ := EReal.coe_ne_top a
/-- A coercion is not `-∞`. -/
theorem coe_ne_bot' (a : ℝ) : (a : EReal) ≠ ⊥ := EReal.coe_ne_bot a

/-! ### Quotient and the square roots -/

/-- The quotient of two coercions by a nonzero divisor is the coercion of the real quotient. -/
theorem div_coe {b : ℝ} (hb : b ≠ 0) (a : ℝ) : Ideal.div (a : EReal) (b : EReal) = ((a / b : ℝ) : EReal) := by
  rw [Ideal.div_coe hb, ← EReal.coe_mul, mul_one_div]

/-- The reciprocal square root of a positive real. -/
theorem rsqrt_coe {r : ℝ} (hr : 0 < r) : Ideal.rsqrt (r : EReal) = (((Real.sqrt r)⁻¹ : ℝ) : EReal) := by
  rw [Ideal.rsqrt_coe, if_neg (not_lt.mpr hr.le), if_neg hr.ne']

/-- The square root of a nonnegative real. -/
theorem sqrt_coe {r : ℝ} (hr : 0 ≤ r) : Ideal.sqrt (r : EReal) = ((Real.sqrt r : ℝ) : EReal) := by
  rw [Ideal.sqrt_coe, if_neg (not_lt.mpr hr)]

/-- A real square root is nonnegative. -/
theorem sqrt_nonneg' (r : ℝ) : 0 ≤ Real.sqrt r := Real.sqrt_nonneg r

/-- The real square root of a positive real is positive. -/
theorem sqrt_pos' {r : ℝ} (hr : 0 < r) : 0 < Real.sqrt r := Real.sqrt_pos.mpr hr
/-- The real square root of a positive real is nonzero. -/
theorem sqrt_ne_zero'' {r : ℝ} (hr : 0 < r) : Real.sqrt r ≠ 0 := (Real.sqrt_pos.mpr hr).ne'

/-! ### The same, spelled with the float operations at the ideal reading -/

section FloatOpsForms
variable {φ : FTy}

/-- `addf` of two reals. -/
theorem addf_coe (a b : ℝ) : FloatOps.addf (F := Ideal) (φ := φ) ((a : ℝ) : EReal) ((b : ℝ) : EReal) = ((a + b : ℝ) : EReal) :=
  add_coe a b

/-- `subf` of two reals. -/
theorem subf_coe (a b : ℝ) : FloatOps.subf (F := Ideal) (φ := φ) ((a : ℝ) : EReal) ((b : ℝ) : EReal) = ((a - b : ℝ) : EReal) :=
  sub_coe a b

/-- `mulf` of two reals. -/
theorem mulf_coe (a b : ℝ) : FloatOps.mulf (F := Ideal) (φ := φ) ((a : ℝ) : EReal) ((b : ℝ) : EReal) = ((a * b : ℝ) : EReal) :=
  mul_coe a b

/-- `maximumf` of two reals. -/
theorem maximumf_coe (a b : ℝ) :
    FloatOps.maximumf (F := Ideal) (φ := φ) ((a : ℝ) : EReal) ((b : ℝ) : EReal) = ((max a b : ℝ) : EReal) :=
  max_coe a b

/-- `divf` of two reals, the divisor nonzero. -/
theorem divf_coe {b : ℝ} (hb : b ≠ 0) (a : ℝ) :
    FloatOps.divf (F := Ideal) (φ := φ) ((a : ℝ) : EReal) ((b : ℝ) : EReal) = ((a / b : ℝ) : EReal) :=
  div_coe hb a

/-- The host's quotient of two reals, the divisor nonzero. -/
theorem hostDivf_coe {b : ℝ} (hb : b ≠ 0) (a : ℝ) :
    FloatOps.hostDivf (F := Ideal) (φ := φ) ((a : ℝ) : EReal) ((b : ℝ) : EReal) = ((a / b : ℝ) : EReal) :=
  div_coe hb a

/-- The kernel's reciprocal square root of a positive real. -/
theorem rsqrtf_coe {r : ℝ} (hr : 0 < r) :
    FloatOps.rsqrt (F := Ideal) (φ := φ) ((r : ℝ) : EReal) = (((Real.sqrt r)⁻¹ : ℝ) : EReal) := rsqrt_coe hr

/-- The host's reciprocal square root of a positive real. -/
theorem hostRsqrt_coe {r : ℝ} (hr : 0 < r) :
    FloatOps.hostUnary (F := Ideal) (φ := φ) .rsqrt ((r : ℝ) : EReal) = (((Real.sqrt r)⁻¹ : ℝ) : EReal) := rsqrt_coe hr

/-- The kernel's square root of a nonnegative real. -/
theorem sqrtf_coe {r : ℝ} (hr : 0 ≤ r) :
    FloatOps.sqrt (F := Ideal) (φ := φ) ((r : ℝ) : EReal) = ((Real.sqrt r : ℝ) : EReal) := sqrt_coe hr

/-- The host's square root of a nonnegative real. -/
theorem hostSqrt_coe {r : ℝ} (hr : 0 ≤ r) :
    FloatOps.hostUnary (F := Ideal) (φ := φ) .sqrt ((r : ℝ) : EReal) = ((Real.sqrt r : ℝ) : EReal) := sqrt_coe hr

/-- A signed integer read as a float is the coercion of that integer. -/
theorem sitofp_coe {w : Nat} (b : BitVec w) :
    FloatOps.sitofp (F := Ideal) φ b = (((b.toInt : ℤ) : ℝ) : EReal) := rfl

end FloatOpsForms

/-! ### Comparisons of coercions -/

/-- Strict order between coercions is the real one. -/
theorem coe_lt_coe {a b : ℝ} : (a : EReal) < (b : EReal) ↔ a < b := EReal.coe_lt_coe_iff

/-- Order between coercions is the real one. -/
theorem coe_le_coe {a b : ℝ} : (a : EReal) ≤ (b : EReal) ↔ a ≤ b := EReal.coe_le_coe_iff

/-- Equality between coercions is the real one. -/
theorem coe_eq_coe {a b : ℝ} : (a : EReal) = (b : EReal) ↔ a = b := EReal.coe_eq_coe_iff

/-- The float comparison "greater than" of two reals answers the real comparison. -/
theorem cmp_ogt_coe (a b : ℝ) : Ideal.cmp .ogt (a : EReal) (b : EReal) = BitVec.ofBool (decide (b < a)) := by
  simp only [Ideal.cmp, EReal.coe_lt_coe_iff]

/-- "Greater than" holds between reals in that order: the comparison's bit is set. -/
theorem cmp_ogt_coe_of_lt {a b : ℝ} (h : b < a) : Ideal.cmp .ogt (a : EReal) (b : EReal) = 1#1 := by
  rw [cmp_ogt_coe, decide_eq_true h]; rfl

/-- The same through the float operation's name. -/
theorem cmpf_ogt_coe_of_lt {φ : FTy} {a b : ℝ} (h : b < a) :
    FloatOps.cmpf (F := Ideal) (φ := φ) .ogt ((a : ℝ) : EReal) ((b : ℝ) : EReal) = 1#1 :=
  cmp_ogt_coe_of_lt h

/-! ### The float literals of the two programs, as reals -/

/-- `0.0`. -/
theorem ofBits_zero : Ideal.ofBits .f32 0x00000000#32 = ((0 : ℝ) : EReal) := by
  rw [Ideal.ofBits_zero_f32, EReal.coe_zero]

/-- `1.0`. -/
theorem ofBits_one : Ideal.ofBits .f32 0x3F800000#32 = ((1 : ℝ) : EReal) := by
  simp [Ideal.ofBits, Ideal.ieee, -EReal.coe_mul]; norm_num

/-- `100000.0`. -/
theorem ofBits_100000 : Ideal.ofBits .f32 0x47C35000#32 = ((100000 : ℝ) : EReal) := by
  simp [Ideal.ofBits, Ideal.ieee, -EReal.coe_mul]; norm_num

/-- `2000.0`. -/
theorem ofBits_2000 : Ideal.ofBits .f32 0x44FA0000#32 = ((2000 : ℝ) : EReal) := by
  simp [Ideal.ofBits, Ideal.ieee, -EReal.coe_mul]; norm_num

/-- `5000.0`. -/
theorem ofBits_5000 : Ideal.ofBits .f32 0x459C4000#32 = ((5000 : ℝ) : EReal) := by
  simp [Ideal.ofBits, Ideal.ieee, -EReal.coe_mul]; norm_num

/-- `3000.0`. -/
theorem ofBits_3000 : Ideal.ofBits .f32 0x453B8000#32 = ((3000 : ℝ) : EReal) := by
  simp [Ideal.ofBits, Ideal.ieee, -EReal.coe_mul]; norm_num

/-- The quiet-NaN pattern denotes the junk value `⊥`. -/
theorem ofBits_nan : Ideal.ofBits .f32 0x7FC00000#32 = ⊥ := by
  simp [Ideal.ofBits, Ideal.ieee]

/-- The single-precision number nearest `10⁻⁵`: `10995116 · 2⁻⁴⁰`. -/
def eps5 : ℝ := 10995116 / 2 ^ 40

/-- The single-precision number nearest `10⁻¹²`: `9223372 · 2⁻⁶³`. -/
def eps12 : ℝ := 9223372 / 2 ^ 63

/-- `eps5` is positive. -/
theorem eps5_pos : 0 < eps5 := by unfold eps5; positivity

/-- `eps12` is positive. -/
theorem eps12_pos : 0 < eps12 := by unfold eps12; positivity

/-- The literal `1e-5`. -/
theorem ofBits_eps5 : Ideal.ofBits .f32 0x3727C5AC#32 = ((eps5 : ℝ) : EReal) := by
  simp [Ideal.ofBits, Ideal.ieee, -EReal.coe_mul, eps5]; norm_num

/-- The literal `1e-12`. -/
theorem ofBits_eps12 : Ideal.ofBits .f32 0x2B8CBCCC#32 = ((eps12 : ℝ) : EReal) := by
  simp [Ideal.ofBits, Ideal.ieee, -EReal.coe_mul, eps12]; norm_num

end Cert.Lib.ERealArith

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.KernelQuant.lean ====
/-
  The quantizer kernel's body at an entry, over real inputs.
-/
import proofs.«111153_g7705171329283_cont_sun_m_1135_5_alg».proof.Proof.Gen.KernelIdeal.Skeleton
import proofs.«111153_g7705171329283_cont_sun_m_1135_5_alg».proof.Proof.Spec
import proofs.«111153_g7705171329283_cont_sun_m_1135_5_alg».proof.Proof.LibERealArith
import proofs.«111153_g7705171329283_cont_sun_m_1135_5_alg».proof.Proof.LibColumn
import Idealize.ShloMosaic.Lib.ValueIdx
import Idealize.ShloMosaic.Lib.Pipeline.Value
import Idealize.ShloMosaic.PureOps.Ideal.Laws

noncomputable section

namespace Cert.KernelIdeal.Quant

open Cert.KernelIdeal Cert.KernelIdeal.Gen Idealize.ShloMosaic Idealize.ShloMosaic.ValueIdx
open scoped BigOperators

/-! ### The two literals -/

/-- `2.0`. -/
theorem ofBits_two : Ideal.ofBits .f32 0x40000000#32 = ((2 : ℝ) : EReal) := by
  simp [Ideal.ofBits, Ideal.ieee, -EReal.coe_mul]; norm_num

/-- `-∞`. -/
theorem ofBits_negInf : Ideal.ofBits .f32 0xFF800000#32 = (⊥ : EReal) := by
  simp [Ideal.ofBits, Ideal.ieee]

/-! ### Layout forms -/

section Layout
variable {α : Type}

/-- A vector of 512 entries laid as a row and repeated down 2048 rows reads, at `(r, k)`, its entry `k`. -/
theorem rowForm_apply (x : S512.Idx → α) (r : Fin 2048) (k : Fin 512) :
    broadcastTo S2048x512 (shapeCast S1x512 x shapeCasts_S512_S1x512) broadcasts_S1x512_S2048x512 (ix2 r k) = x (ix1 k) := by
  refine (broadcastTo_apply _ broadcasts_S1x512_S2048x512 (ix2 r k) (ix2 (0 : Fin 1) k) (fun a => ?_)).trans ?_
  · match a with
    | ⟨0, _⟩ => show (0 : ℕ) = if (1 : ℕ) = 1 then 0 else r.val; rw [if_pos rfl]
    | ⟨1, _⟩ => show k.val = if (512 : ℕ) = 1 then 0 else k.val; rw [if_neg (by decide)]
  · refine shapeCast_apply x shapeCasts_S512_S1x512 (ix2 (0 : Fin 1) k) (ix1 k) ?_
    rw [Shape.rowMajor_val_two, Shape.rowMajor_val_one]
    show k.val = 0 * 512 + k.val
    omega

/-- A vector of 2048 entries laid as a column and repeated along 512 lanes reads, at `(r, k)`, its entry `r`. -/
theorem colForm512_apply (x : S2048.Idx → α) (r : Fin 2048) (k : Fin 512) :
    broadcastTo S2048x512 (shapeCast S2048x1 x shapeCasts_S2048_S2048x1) broadcasts_S2048x1_S2048x512 (ix2 r k) = x (ix1 r) :=
  (ValueLayout.broadcastTo_a1_ab_apply (a := 2048) (b := 512) (by decide) _ broadcasts_S2048x1_S2048x512 r k).trans
    (ValueLayout.shapeCast_a_a1_apply (a := 2048) x shapeCasts_S2048_S2048x1 r 0)

/-- The same along 64 lanes. -/
theorem colForm64_apply (x : S2048.Idx → α) (r : Fin 2048) (d : Fin 64) :
    broadcastTo S2048x64 (shapeCast S2048x1 x shapeCasts_S2048_S2048x1) broadcasts_S2048x1_S2048x64 (ix2 r d) = x (ix1 r) :=
  (ValueLayout.broadcastTo_a1_ab_apply (a := 2048) (b := 64) (by decide) _ broadcasts_S2048x1_S2048x64 r d).trans
    (ValueLayout.shapeCast_a_a1_apply (a := 2048) x shapeCasts_S2048_S2048x1 r 0)

/-- The transposed centroids read, at `(d, k)`, the centroids at `(k, d)`. -/
theorem transposed_apply (x : S512x64.Idx → α) (d : Fin 64) (k : Fin 512) :
    transpose S64x512 [1, 0] x transposes_S512x64_p1_0_S64x512 (ix2 d k) = x (ix2 k d) :=
  transpose_apply [1, 0] x transposes_S512x64_p1_0_S64x512 (ix2 d k) (ix2 k d) (fun b => match b with
    | ⟨0, _⟩ => rfl
    | ⟨1, _⟩ => rfl)

end Layout

/-! ### The two products -/

theorem lhs_scores_0 (i : S2048x512.Idx) (q : dot_S2048x64_S64x512_S2048x512_1_0_0_1_n_n.contr.Idx) :
    (dot_S2048x64_S64x512_S2048x512_1_0_0_1_n_n.lhsIdx i q 0).val = (i 0).val := by
  unfold DotDims.lhsIdx
  rw [dif_neg (show ¬(0 : Fin S2048x64.rank) ∈ dot_S2048x64_S64x512_S2048x512_1_0_0_1_n_n.lhsBatch by decide), dif_pos (show (0 : Fin S2048x64.rank) ∈ dot_S2048x64_S64x512_S2048x512_1_0_0_1_n_n.lhsNonContracting by decide)]
  rfl
theorem lhs_scores_1 (i : S2048x512.Idx) (q : dot_S2048x64_S64x512_S2048x512_1_0_0_1_n_n.contr.Idx) :
    (dot_S2048x64_S64x512_S2048x512_1_0_0_1_n_n.lhsIdx i q 1).val = (q ⟨0, by decide⟩).val :=
  dot_S2048x64_S64x512_S2048x512_1_0_0_1_n_n.lhsIdx_val_of_single rfl i q
theorem rhs_scores_0 (i : S2048x512.Idx) (q : dot_S2048x64_S64x512_S2048x512_1_0_0_1_n_n.contr.Idx) :
    (dot_S2048x64_S64x512_S2048x512_1_0_0_1_n_n.rhsIdx i q 0).val = (q ⟨0, by decide⟩).val :=
  dot_S2048x64_S64x512_S2048x512_1_0_0_1_n_n.rhsIdx_val_of_single rfl i q
theorem rhs_scores_1 (i : S2048x512.Idx) (q : dot_S2048x64_S64x512_S2048x512_1_0_0_1_n_n.contr.Idx) :
    (dot_S2048x64_S64x512_S2048x512_1_0_0_1_n_n.rhsIdx i q 1).val = (i 1).val := by
  unfold DotDims.rhsIdx
  rw [dif_neg (show ¬(1 : Fin S64x512.rank) ∈ dot_S2048x64_S64x512_S2048x512_1_0_0_1_n_n.rhsBatch by decide), dif_pos (show (1 : Fin S64x512.rank) ∈ dot_S2048x64_S64x512_S2048x512_1_0_0_1_n_n.rhsNonContracting by decide)]
  rfl

/-- The block times the transposed centroids into the zero splat: at `(r, k)` the sum over the 64 coordinates. -/
theorem scores_matmul_apply {φ₁ φ₂ : FTy} (x : FVec Ideal S2048x64 φ₁) (y : FVec Ideal S64x512 φ₂) (r : Fin 2048) (k : Fin 512) :
    matmul (F := Ideal) dot_S2048x64_S64x512_S2048x512_1_0_0_1_n_n none x y (constant S2048x512 .f32 0x00000000#32) (ix2 r k)
      = ∑ d : Fin 64, x (ix2 r d) * y (ix2 d k) := by
  refine (Ideal.matmul_constant_zero_apply dot_S2048x64_S64x512_S2048x512_1_0_0_1_n_n none x y (ix2 r k)).trans ?_
  rw [← Equiv.sum_comp (ValueIdx.contrEquiv1 dot_S2048x64_S64x512_S2048x512_1_0_0_1_n_n 64 rfl rfl).symm]
  refine Finset.sum_congr rfl fun d _ => ?_
  have hk := ValueIdx.contrEquiv1_symm_val dot_S2048x64_S64x512_S2048x512_1_0_0_1_n_n 64 rfl rfl d
  have el : dot_S2048x64_S64x512_S2048x512_1_0_0_1_n_n.lhsIdx (ix2 r k) ((ValueIdx.contrEquiv1 dot_S2048x64_S64x512_S2048x512_1_0_0_1_n_n 64 rfl rfl).symm d) = ix2 r d := funext fun a => Fin.ext (by
    match a with
    | ⟨0, _⟩ => exact lhs_scores_0 _ _
    | ⟨1, _⟩ => exact (lhs_scores_1 _ _).trans hk)
  have er : dot_S2048x64_S64x512_S2048x512_1_0_0_1_n_n.rhsIdx (ix2 r k) ((ValueIdx.contrEquiv1 dot_S2048x64_S64x512_S2048x512_1_0_0_1_n_n 64 rfl rfl).symm d) = ix2 d k := funext fun a => Fin.ext (by
    match a with
    | ⟨0, _⟩ => exact (rhs_scores_0 _ _).trans hk
    | ⟨1, _⟩ => exact rhs_scores_1 _ _)
  rw [el, er]

theorem lhs_mix_0 (i : S2048x64.Idx) (q : dot_S2048x512_S512x64_S2048x64_1_0_0_1_n_n.contr.Idx) :
    (dot_S2048x512_S512x64_S2048x64_1_0_0_1_n_n.lhsIdx i q 0).val = (i 0).val := by
  unfold DotDims.lhsIdx
  rw [dif_neg (show ¬(0 : Fin S2048x512.rank) ∈ dot_S2048x512_S512x64_S2048x64_1_0_0_1_n_n.lhsBatch by decide), dif_pos (show (0 : Fin S2048x512.rank) ∈ dot_S2048x512_S512x64_S2048x64_1_0_0_1_n_n.lhsNonContracting by decide)]
  rfl
theorem lhs_mix_1 (i : S2048x64.Idx) (q : dot_S2048x512_S512x64_S2048x64_1_0_0_1_n_n.contr.Idx) :
    (dot_S2048x512_S512x64_S2048x64_1_0_0_1_n_n.lhsIdx i q 1).val = (q ⟨0, by decide⟩).val :=
  dot_S2048x512_S512x64_S2048x64_1_0_0_1_n_n.lhsIdx_val_of_single rfl i q
theorem rhs_mix_0 (i : S2048x64.Idx) (q : dot_S2048x512_S512x64_S2048x64_1_0_0_1_n_n.contr.Idx) :
    (dot_S2048x512_S512x64_S2048x64_1_0_0_1_n_n.rhsIdx i q 0).val = (q ⟨0, by decide⟩).val :=
  dot_S2048x512_S512x64_S2048x64_1_0_0_1_n_n.rhsIdx_val_of_single rfl i q
theorem rhs_mix_1 (i : S2048x64.Idx) (q : dot_S2048x512_S512x64_S2048x64_1_0_0_1_n_n.contr.Idx) :
    (dot_S2048x512_S512x64_S2048x64_1_0_0_1_n_n.rhsIdx i q 1).val = (i 1).val := by
  unfold DotDims.rhsIdx
  rw [dif_neg (show ¬(1 : Fin S512x64.rank) ∈ dot_S2048x512_S512x64_S2048x64_1_0_0_1_n_n.rhsBatch by decide), dif_pos (show (1 : Fin S512x64.rank) ∈ dot_S2048x512_S512x64_S2048x64_1_0_0_1_n_n.rhsNonContracting by decide)]
  rfl

/-- The weights times the centroids into the zero splat: at `(r, d)` the sum over the 512 centroids. -/
theorem mix_matmul_apply {φ₁ φ₂ : FTy} (x : FVec Ideal S2048x512 φ₁) (y : FVec Ideal S512x64 φ₂) (r : Fin 2048) (d : Fin 64) :
    matmul (F := Ideal) dot_S2048x512_S512x64_S2048x64_1_0_0_1_n_n none x y (constant S2048x64 .f32 0x00000000#32) (ix2 r d)
      = ∑ k : Fin 512, x (ix2 r k) * y (ix2 k d) := by
  refine (Ideal.matmul_constant_zero_apply dot_S2048x512_S512x64_S2048x64_1_0_0_1_n_n none x y (ix2 r d)).trans ?_
  rw [← Equiv.sum_comp (ValueIdx.contrEquiv1 dot_S2048x512_S512x64_S2048x64_1_0_0_1_n_n 512 rfl rfl).symm]
  refine Finset.sum_congr rfl fun k _ => ?_
  have hk := ValueIdx.contrEquiv1_symm_val dot_S2048x512_S512x64_S2048x64_1_0_0_1_n_n 512 rfl rfl k
  have el : dot_S2048x512_S512x64_S2048x64_1_0_0_1_n_n.lhsIdx (ix2 r d) ((ValueIdx.contrEquiv1 dot_S2048x512_S512x64_S2048x64_1_0_0_1_n_n 512 rfl rfl).symm k) = ix2 r k := funext fun a => Fin.ext (by
    match a with
    | ⟨0, _⟩ => exact lhs_mix_0 _ _
    | ⟨1, _⟩ => exact (lhs_mix_1 _ _).trans hk)
  have er : dot_S2048x512_S512x64_S2048x64_1_0_0_1_n_n.rhsIdx (ix2 r d) ((ValueIdx.contrEquiv1 dot_S2048x512_S512x64_S2048x64_1_0_0_1_n_n 512 rfl rfl).symm k) = ix2 k d := funext fun a => Fin.ext (by
    match a with
    | ⟨0, _⟩ => exact (rhs_mix_0 _ _).trans hk
    | ⟨1, _⟩ => exact rhs_mix_1 _ _)
  rw [el, er]

/-! ### The three reductions -/

/-- The squared norm of centroid `k`: the lane sum of the centroids' squares. -/
theorem norms_apply (cf : Fin 512 → Fin 64 → ℝ) (v2 : FVec Ideal S512x64 .f32)
    (h2 : ∀ k d, v2 (ix2 k d) = ((cf k d : ℝ) : EReal)) (k : Fin 512) :
    multiReduction (F := Ideal) .add [1] S512 (mulf v2 v2) 0x00000000#32 reduces_S512x64_S512 (.inl rfl) rfl (ix1 k)
      = ((Cert.Spec.csq cf k : ℝ) : EReal) := by
  refine (Ideal.multiReduction_add_single (mulf v2 v2) 0x00000000#32 reduces_S512x64_S512 (.inl rfl) rfl (ix1 k)).trans ?_
  show ∑ d : Fin 64, (mulf v2 v2) (reduces_S512x64_S512.lift (ix1 k) d) = _
  unfold Cert.Spec.csq
  rw [← Cert.Lib.ERealArith.univ_sum_coe]
  refine Finset.sum_congr rfl fun d _ => ?_
  have e : reduces_S512x64_S512.lift (ix1 k) d = ix2 k d :=
    funext fun a => Fin.ext (by match a with | ⟨0, _⟩ => rfl | ⟨1, _⟩ => rfl)
  rw [e, mulf_apply, h2, EReal.coe_mul]

/-- The inserted index of a row reduction of a `2048 × 512` array is `(r, k)`. -/
theorem lift_row (r : Fin 2048) (k : Fin 512) : reduces_S2048x512_S2048.lift (ix1 r) k = ix2 r k :=
  funext fun a => Fin.ext (by match a with | ⟨0, _⟩ => rfl | ⟨1, _⟩ => rfl)

/-- A row's maximum from `-∞` over real entries is the real maximum. -/
theorem rowMax_apply (x : FVec Ideal S2048x512 .f32) (f : Fin 2048 → Fin 512 → ℝ)
    (hx : ∀ r k, x (ix2 r k) = ((f r k : ℝ) : EReal)) (r : Fin 2048) :
    multiReduction (F := Ideal) .maximumf [1] S2048 x 0xFF800000#32 reduces_S2048x512_S2048 (.inl rfl) rfl (ix1 r)
      = ((Finset.univ.sup' Finset.univ_nonempty (f r) : ℝ) : EReal) := by
  refine (Ideal.multiReduction_maximumf_single x 0xFF800000#32 reduces_S2048x512_S2048 (.inl rfl) rfl (ix1 r)).trans ?_
  show (Finset.univ : Finset (Fin 512)).fold max (Ideal.ofBits .f32 0xFF800000#32) (x ∘ reduces_S2048x512_S2048.lift (ix1 r)) = _
  have e : (x ∘ reduces_S2048x512_S2048.lift (ix1 r)) = fun k : Fin 512 => ((f r k : ℝ) : EReal) :=
    funext fun k : Fin 512 => (congrArg x (lift_row r k)).trans (hx r k)
  rw [e, ofBits_negInf]
  exact Cert.Spec.fold_max_bot_coe (f r)

/-- A row's sum over real entries is the real sum. -/
theorem rowSum_apply (x : FVec Ideal S2048x512 .f32) (f : Fin 2048 → Fin 512 → ℝ)
    (hx : ∀ r k, x (ix2 r k) = ((f r k : ℝ) : EReal)) (r : Fin 2048) :
    multiReduction (F := Ideal) .add [1] S2048 x 0x00000000#32 reduces_S2048x512_S2048 (.inl rfl) rfl (ix1 r)
      = ((∑ k, f r k : ℝ) : EReal) := by
  refine (Ideal.multiReduction_add_single x 0x00000000#32 reduces_S2048x512_S2048 (.inl rfl) rfl (ix1 r)).trans ?_
  show ∑ k : Fin 512, x (reduces_S2048x512_S2048.lift (ix1 r) k) = _
  rw [← Cert.Lib.ERealArith.univ_sum_coe]
  exact Finset.sum_congr rfl fun (k : Fin 512) _ => (congrArg x (lift_row r k)).trans (hx r k)

/-! ### The stages of the body, over real inputs -/

/-- The logits as the body computes them: twice the products less the centroid norms, times one. -/
def kLogits (v0 : FVec Ideal S2048x64 .f32) (v2 : FVec Ideal S512x64 .f32) : FVec Ideal S2048x512 .f32 :=
  mulf
    (subf
      (mulf (broadcast S2048x512 (Scalar.ofBits (F := Ideal) .f32 0x40000000#32))
        (matmul (F := Ideal) dot_S2048x64_S64x512_S2048x512_1_0_0_1_n_n none
          (shapeCast S2048x64 v0 shapeCasts_S2048x64_S2048x64)
          (transpose S64x512 [1, 0] v2 transposes_S512x64_p1_0_S64x512)
          (constant S2048x512 .f32 0x00000000#32)))
      (broadcastTo S2048x512
        (shapeCast S1x512
          (multiReduction (F := Ideal) .add [1] S512 (mulf v2 v2) 0x00000000#32 reduces_S512x64_S512 (.inl rfl) rfl)
          shapeCasts_S512_S1x512)
        broadcasts_S1x512_S2048x512))
    (broadcast S2048x512 (Scalar.ofBits (F := Ideal) .f32 0x3F800000#32))

/-- The shifted exponentials as the body computes them. -/
def kExp (v0 : FVec Ideal S2048x64 .f32) (v2 : FVec Ideal S512x64 .f32) : FVec Ideal S2048x512 .f32 :=
  exp
    (subf (kLogits v0 v2)
      (broadcastTo S2048x512
        (shapeCast S2048x1
          (multiReduction (F := Ideal) .maximumf [1] S2048 (kLogits v0 v2) 0xFF800000#32 reduces_S2048x512_S2048 (.inl rfl) rfl)
          shapeCasts_S2048_S2048x1)
        broadcasts_S2048x1_S2048x512))

/-- The stored value is the exponentials' combination of the centroids over the exponentials' row sum. -/
theorem k0_pay1_eq (v0 : FVec Ideal S2048x64 .f32) (v2 : FVec Ideal S512x64 .f32) :
    k0_pay1 (F := Ideal) v0 v2
      = truncf .bf16
          (divf
            (matmul (F := Ideal) dot_S2048x512_S512x64_S2048x64_1_0_0_1_n_n none
              (truncf .bf16 (kExp v0 v2) bitsLt_bf16_f32) (truncf .bf16 v2 bitsLt_bf16_f32)
              (constant S2048x64 .f32 0x00000000#32))
            (broadcastTo S2048x64
              (shapeCast S2048x1
                (multiReduction (F := Ideal) .add [1] S2048 (kExp v0 v2) 0x00000000#32 reduces_S2048x512_S2048 (.inl rfl) rfl)
                shapeCasts_S2048_S2048x1)
              broadcasts_S2048x1_S2048x64))
          bitsLt_bf16_f32 := rfl

section Stages
variable (zb : Fin 2048 → Fin 64 → ℝ) (cf : Fin 512 → Fin 64 → ℝ)
  (v0 : FVec Ideal S2048x64 .f32) (v2 : FVec Ideal S512x64 .f32)
  (h0 : ∀ r d, v0 (ix2 r d) = ((zb r d : ℝ) : EReal))
  (h2 : ∀ k d, v2 (ix2 k d) = ((cf k d : ℝ) : EReal))
include h0 h2

/-- The logit of row `r` against centroid `k`. -/
theorem kLogits_apply (r : Fin 2048) (k : Fin 512) :
    kLogits v0 v2 (ix2 r k) = ((Cert.Spec.logit zb cf r k : ℝ) : EReal) := by
  have hs : matmul (F := Ideal) dot_S2048x64_S64x512_S2048x512_1_0_0_1_n_n none
      (shapeCast S2048x64 v0 shapeCasts_S2048x64_S2048x64)
      (transpose S64x512 [1, 0] v2 transposes_S512x64_p1_0_S64x512)
      (constant S2048x512 .f32 0x00000000#32) (ix2 r k) = ((Cert.Spec.zc zb cf r k : ℝ) : EReal) := by
    refine (scores_matmul_apply _ _ r k).trans ?_
    unfold Cert.Spec.zc
    rw [← Cert.Lib.ERealArith.univ_sum_coe]
    refine Finset.sum_congr rfl fun d _ => ?_
    rw [shapeCast_self, transposed_apply, h0, h2, EReal.coe_mul]
  have hn : broadcastTo S2048x512
        (shapeCast S1x512
          (multiReduction (F := Ideal) .add [1] S512 (mulf v2 v2) 0x00000000#32 reduces_S512x64_S512 (.inl rfl) rfl)
          shapeCasts_S512_S1x512)
        broadcasts_S1x512_S2048x512 (ix2 r k) = ((Cert.Spec.csq cf k : ℝ) : EReal) :=
    (rowForm_apply _ r k).trans (norms_apply cf v2 h2 k)
  unfold kLogits
  rw [mulf_apply, subf_apply, mulf_apply, broadcast_apply, broadcast_apply, hs, hn]
  show (Ideal.ofBits .f32 0x40000000#32 * ((Cert.Spec.zc zb cf r k : ℝ) : EReal) - ((Cert.Spec.csq cf k : ℝ) : EReal))
      * Ideal.ofBits .f32 0x3F800000#32 = _
  rw [ofBits_two, Cert.Lib.ERealArith.ofBits_one, Cert.Lib.ERealArith.mul_coe, Cert.Lib.ERealArith.sub_coe,
    Cert.Lib.ERealArith.mul_coe]
  rfl

/-- The shifted exponential of row `r` against centroid `k`. -/
theorem kExp_apply (r : Fin 2048) (k : Fin 512) :
    kExp v0 v2 (ix2 r k) = ((Cert.Spec.ex zb cf r k : ℝ) : EReal) := by
  have hm : broadcastTo S2048x512
        (shapeCast S2048x1
          (multiReduction (F := Ideal) .maximumf [1] S2048 (kLogits v0 v2) 0xFF800000#32 reduces_S2048x512_S2048 (.inl rfl) rfl)
          shapeCasts_S2048_S2048x1)
        broadcasts_S2048x1_S2048x512 (ix2 r k) = ((Cert.Spec.rowMax zb cf r : ℝ) : EReal) :=
    (colForm512_apply _ r k).trans (rowMax_apply (kLogits v0 v2) (Cert.Spec.logit zb cf) (kLogits_apply zb cf v0 v2 h0 h2) r)
  unfold kExp
  show Ideal.exp (kLogits v0 v2 (ix2 r k) - _) = _
  rw [hm, kLogits_apply zb cf v0 v2 h0 h2, Cert.Lib.ERealArith.sub_coe, Ideal.exp_coe]
  rfl

end Stages

/-- The body's stored value at row `r`, column `d` of a block whose entries are the reals `zb`, against
    centroids `cf`: the quantizer of that block's rows. -/
theorem k0_pay1_apply (zb : Fin 2048 → Fin 64 → ℝ) (cf : Fin 512 → Fin 64 → ℝ)
    (v0 : Vec Ideal S2048x64 .f32) (v2 : Vec Ideal S512x64 .f32)
    (h0 : ∀ r d, v0 (ix2 r d) = ((zb r d : ℝ) : EReal))
    (h2 : ∀ k d, v2 (ix2 k d) = ((cf k d : ℝ) : EReal))
    (r : Fin 2048) (d : Fin 64) :
    k0_pay1 (F := Ideal) v0 v2 (ix2 r d) = ((Cert.Spec.quant zb cf r d : ℝ) : EReal) := by
  have hnum : matmul (F := Ideal) dot_S2048x512_S512x64_S2048x64_1_0_0_1_n_n none
      (truncf .bf16 (kExp v0 v2) bitsLt_bf16_f32) (truncf .bf16 (v2 : FVec Ideal S512x64 .f32) bitsLt_bf16_f32)
      (constant S2048x64 .f32 0x00000000#32) (ix2 r d)
        = ((∑ k, Cert.Spec.ex zb cf r k * cf k d : ℝ) : EReal) := by
    refine (mix_matmul_apply _ _ r d).trans ?_
    rw [← Cert.Lib.ERealArith.univ_sum_coe]
    refine Finset.sum_congr rfl fun k _ => ?_
    rw [truncf_apply, truncf_apply, kExp_apply zb cf v0 v2 h0 h2, h2, EReal.coe_mul]
  have hden : broadcastTo S2048x64
      (shapeCast S2048x1
        (multiReduction (F := Ideal) .add [1] S2048 (kExp v0 v2) 0x00000000#32 reduces_S2048x512_S2048 (.inl rfl) rfl)
        shapeCasts_S2048_S2048x1)
      broadcasts_S2048x1_S2048x64 (ix2 r d) = ((Cert.Spec.den zb cf r : ℝ) : EReal) :=
    (colForm64_apply _ r d).trans (rowSum_apply (kExp v0 v2) (Cert.Spec.ex zb cf) (kExp_apply zb cf v0 v2 h0 h2) r)
  rw [k0_pay1_eq, truncf_apply, divf_apply, hnum, hden,
    Cert.Lib.ERealArith.div_coe (Cert.Spec.den_pos zb cf r).ne']
  rfl

end Cert.KernelIdeal.Quant

end
-- ==== Proof.Result.lean ====
/-
  The common value of the two programs.

  The flat parameter vector, read 64 at a time, is 65536 groups; each is quantized against the 512 centroids
  (`Cert.Spec.quant`). The quantized groups, laid out flat again and read 2048 at a time, are the rows of a
  2048 × 2048 weight matrix: entry (k, j) is flat position k · 2048 + j, that is column (k · 2048 + j) mod 64
  of group (k · 2048 + j) / 64. The result is the product of the activations with that matrix, a sum of
  2048 products in the extended reals (the activations are not assumed finite).
-/
import proofs.«111153_g7705171329283_cont_sun_m_1135_5_alg».proof.Proof.Spec

noncomputable section

namespace Cert.Result

open scoped BigOperators

/-- The flat parameter vector as 65536 groups of 64. -/
def groups (zf : Fin 4194304 → ℝ) (g : Fin 65536) (d : Fin 64) : ℝ :=
  zf ⟨g.val * 64 + d.val, by have := g.isLt; have := d.isLt; omega⟩

/-- The group that holds entry (k, j) of the weight matrix. -/
def wRow (k j : Fin 2048) : Fin 65536 := ⟨(k.val * 2048 + j.val) / 64, by have := k.isLt; have := j.isLt; omega⟩
/-- Its position inside the group. -/
def wCol (k j : Fin 2048) : Fin 64 := ⟨(k.val * 2048 + j.val) % 64, Nat.mod_lt _ (by decide)⟩

/-- The weight matrix: the quantized parameters, 2048 to a row. -/
def weight (zf : Fin 4194304 → ℝ) (cf : Fin 512 → Fin 64 → ℝ) (k j : Fin 2048) : ℝ :=
  Cert.Spec.quant (groups zf) cf (wRow k j) (wCol k j)

/-- The result: activations times weights. -/
def result (X : Fin 8192 → Fin 2048 → EReal) (zf : Fin 4194304 → ℝ) (cf : Fin 512 → Fin 64 → ℝ)
    (i : Fin 8192) (j : Fin 2048) : EReal :=
  ∑ k : Fin 2048, X i k * ((weight zf cf k j : ℝ) : EReal)

end Cert.Result

end
-- ==== Proof.KernelQuantArr.lean ====
/-
  The quantized parameters as the first launch leaves them, entry by entry, over real parameters and centroids.
-/
import proofs.«111153_g7705171329283_cont_sun_m_1135_5_alg».proof.Proof.Gen.KernelIdeal.Frame
import proofs.«111153_g7705171329283_cont_sun_m_1135_5_alg».proof.Proof.KernelQuant
import proofs.«111153_g7705171329283_cont_sun_m_1135_5_alg».proof.Proof.Result
import Idealize.ShloMosaic.Lib.ValueIdx
import Idealize.ShloMosaic.Lib.Pipeline.Value
import Idealize.ShloMosaic.Lib.StableHlo.Run

set_option maxRecDepth 16384

noncomputable section

namespace Cert.KernelIdeal.QuantArr

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-- The zero offsets of a whole block, as the constant function. -/
theorem hz0 : (![0, 0] : Fin 2 → Nat) = fun _ => 0 := funext fun a => by fin_cases a <;> rfl

/-- The quantizer's index maps at each of its 32 grid points: the parameter window and the output window are at block
    row `t`, block column `0`; the centroid window is at block `(0, 0)` throughout. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A grid point of the quantizer is below 32. -/
theorem lt32 (t : Fin cfg0.N) : t.val < 32 := lt_of_lt_of_eq t.isLt N_0

/-- When the quantizer is entered, its parameter array is the flat parameter buffer read 64 to a row. -/
theorem V1_main_v0 (c : Dev nD) :
    (V1 m ρ c main_v0 : S65536x64.Idx → EReal)
      = shapeCast _ (m ((c.tc : Thread nD τ).loc main_arg1)) shapeCasts_S4194304_S65536x64 := by
  dsimp only [V1, W1, hostOps0]
  after_results
  rfl

/-- When the quantizer is entered, the centroid buffer is as launched. -/
theorem V1_main_arg2 (c : Dev nD) :
    V1 m ρ c main_arg2 = m ((c.tc : Thread nD τ).loc main_arg2) := by
  dsimp only [V1, W1, hostOps0]
  after_results

/-- The group a block's row is: row `r` of block `t` is group `2048 t + r`. -/
def grp (t : Fin cfg0.N) (r : Fin 2048) : Fin 65536 :=
  ⟨2048 * t.val + r.val, by have := lt32 t; have := r.isLt; omega⟩

/-- The parameter block at point `t`, entry `(r, d)`: flat position `(2048 t + r) · 64 + d`, that is column `d` of
    group `2048 t + r`. -/
theorem pblk_apply (c : Dev nD) (zf : Fin 4194304 → ℝ)
    (hz : ∀ n : Fin 4194304, (m ((c.tc : Thread nD τ).loc main_arg1) (ix1 n) : EReal) = ((zf n : ℝ) : EReal))
    (t : Fin cfg0.N) (r : Fin 2048) (d : Fin 64) :
    (iblk0 (V1 m ρ) c 0 t : Vec Ideal S2048x64 .f32) (ix2 r d)
      = ((Cert.Result.groups zf (grp t r) d : ℝ) : EReal) := by
  obtain ⟨e0, e1, -⟩ := idx_facts0 t
  have ht : t.val < 32 := lt32 t
  unfold iblk0
  rw [View.read_apply]
  show (V1 m ρ c main_v0 : S65536x64.Idx → EReal) (((cfg0.win 0).blk t).view.emb (ix2 r d)) = _
  rw [V1_main_v0]
  refine (shapeCast_apply _ _ _ (ix1 ⟨(grp t r).val * 64 + d.val, by have := (grp t r).isLt; have := d.isLt; omega⟩) ?_).trans (hz _)
  rw [Shape.rowMajor_val_one, Shape.rowMajor_val_two]
  show (2048 * t.val + r.val) * 64 + d.val
    = (win0_0.index t (0 : Fin 2) * 2048 + 1 * r.val) * 64 + (win0_0.index t (1 : Fin 2) * 64 + 1 * d.val)
  rw [e0, e1]; omega

/-- The centroid block at any point is the whole centroid array. -/
theorem cblk_apply (c : Dev nD) (cf : Fin 512 → Fin 64 → ℝ)
    (hc : ∀ (k : Fin 512) (d : Fin 64), (m ((c.tc : Thread nD τ).loc main_arg2) (ix2 k d) : EReal) = ((cf k d : ℝ) : EReal))
    (t : Fin cfg0.N) (k : Fin 512) (d : Fin 64) :
    (iblk0 (V1 m ρ) c 1 t : Vec Ideal S512x64 .f32) (ix2 k d) = ((cf k d : ℝ) : EReal) := by
  obtain ⟨-, -, e2, e3, -⟩ := idx_facts0 t
  unfold iblk0
  rw [View.read_apply]
  show (V1 m ρ c main_arg2 : S512x64.Idx → EReal) (((cfg0.win 1).blk t).view.emb (ix2 k d)) = _
  rw [V1_main_arg2]
  refine Eq.trans (congrArg _ ?_) (hc k d)
  funext a; apply Fin.ext
  match a with
  | ⟨0, _⟩ => show win0_1.index t (0 : Fin 2) * 512 + 1 * k.val = k.val; rw [e2]; omega
  | ⟨1, _⟩ => show win0_1.index t (1 : Fin 2) * 64 + 1 * d.val = d.val; rw [e3]; omega

/-- The quantized parameters as one array: entry `(g, d)` is the quantizer of the groups at group `g`, column `d`. -/
def Q (zf : Fin 4194304 → ℝ) (cf : Fin 512 → Fin 64 → ℝ) : S65536x64.Idx → EReal :=
  fun i => ((Cert.Spec.quant (Cert.Result.groups zf) cf ⟨(i 0).val, idx2_lt0 i⟩ ⟨(i 1).val, idx2_lt1 i⟩ : ℝ) : EReal)

/-- What point `t` writes back is block `t` of `Q`: the body quantizes the block's 2048 rows against the whole
    codebook, rows are quantized independently, and row `r` of the block is group `2048 t + r`. -/
theorem flushed_eq (c : Dev nD) (zf : Fin 4194304 → ℝ) (cf : Fin 512 → Fin 64 → ℝ)
    (hz : ∀ n : Fin 4194304, (m ((c.tc : Thread nD τ).loc main_arg1) (ix1 n) : EReal) = ((zf n : ℝ) : EReal))
    (hc : ∀ (k : Fin 512) (d : Fin 64), (m ((c.tc : Thread nD τ).loc main_arg2) (ix2 k d) : EReal) = ((cf k d : ℝ) : EReal))
    (t : Fin cfg0.N) :
    (dat0 (V1 m ρ) c).flushed 2 t = ((cfg0.win 2).blk t).view.read (Elt Ideal) (Q zf cf) := by
  show (cfg0.win 2).cut (grid0.coords t) ((dat0 (V1 m ρ) c).after 2 t) = _
  rw [after0_2]
  unfold out0_2
  rw [View.canon_unit_zero hz0]
  simp only [View.ld_unit_zero (S := S2048x64) hz0, View.ld_unit_zero (S := S512x64) hz0]
  obtain ⟨-, -, -, -, e4, e5⟩ := idx_facts0 t
  funext y
  obtain ⟨r, d, rfl⟩ : ∃ (r : Fin 2048) (d : Fin 64), y = ix2 r d := ⟨y 0, y 1, eq_ix2 y⟩
  show k0_pay1 (F := Ideal) (iblk0 (V1 m ρ) c 0 t) (iblk0 (V1 m ρ) c 1 t) (ix2 r d)
    = Q zf cf (((cfg0.win 2).blk t).view.emb (ix2 r d))
  refine (Cert.KernelIdeal.Quant.k0_pay1_apply (fun r d => Cert.Result.groups zf (grp t r) d) cf _ _
    (pblk_apply m ρ c zf hz t) (cblk_apply m ρ c cf hc t) r d).trans ?_
  rw [Cert.Spec.quant_comp (grp t) (Cert.Result.groups zf) cf r d]
  unfold Q
  have hg : grp t r = ⟨((((cfg0.win 2).blk t).view.emb (ix2 r d)) 0).val, idx2_lt0 _⟩ := by
    apply Fin.ext
    show 2048 * t.val + r.val = win0_2.index t (0 : Fin 2) * 2048 + 1 * r.val
    rw [e4]; omega
  have hd : d = ⟨((((cfg0.win 2).blk t).view.emb (ix2 r d)) 1).val, idx2_lt1 _⟩ := by
    apply Fin.ext
    show d.val = win0_2.index t (1 : Fin 2) * 64 + 1 * d.val
    rw [e5]; omega
  rw [← hg, ← hd]

/-- An index of the array is in point `t`'s block iff each coordinate is in the block's range on its axis. -/
theorem mem_blk (t : Fin cfg0.N) (i : S65536x64.Idx) :
    i ∈ ((cfg0.win 2).blk t).view.set ↔ ∀ a : Fin 2, win0_2.index t a * S2048x64.size a ≤ (i a).val ∧ (i a).val < win0_2.index t a * S2048x64.size a + S2048x64.size a := by
  show i ∈ ((View.whole main_v1).slice (win0_2.rect t)).set ↔ _
  rw [View.set_slice_whole, Rect.mem_set_unit]
  exact Iff.rfl

/-- The 32 blocks of 2048 rows fill the 65536 rows: row `g` is in the block of point `g / 2048`, and every point
    writes back. -/
theorem cover (i : S65536x64.Idx) :
    ∃ t : Fin cfg0.N, (cfg0.win 2).flush t = true ∧ i ∈ ((cfg0.win 2).blk t).view.set := by
  have hi0 : (i 0).val < 65536 := idx2_lt0 i
  have hi1 : (i 1).val < 64 := idx2_lt1 i
  refine ⟨⟨(i 0).val / 2048, by rw [show cfg0.N = 32 from N_0]; omega⟩, flush0_2 _, ?_⟩
  rw [mem_blk]
  obtain ⟨-, -, -, -, e4, e5⟩ := idx_facts0 ⟨(i 0).val / 2048, by rw [show cfg0.N = 32 from N_0]; omega⟩
  intro a
  match a with
  | ⟨0, _⟩ =>
    show win0_2.index _ (0 : Fin 2) * 2048 ≤ (i 0).val ∧ (i 0).val < win0_2.index _ (0 : Fin 2) * 2048 + 2048
    rw [e4]; show (i 0).val / 2048 * 2048 ≤ (i 0).val ∧ (i 0).val < (i 0).val / 2048 * 2048 + 2048; omega
  | ⟨1, _⟩ =>
    show win0_2.index _ (1 : Fin 2) * 64 ≤ (i 1).val ∧ (i 1).val < win0_2.index _ (1 : Fin 2) * 64 + 64
    rw [e5]; omega

/-- So the output array ends holding `Q`: each point writes its block of `Q`, and the blocks fill the array. -/
theorem final (c : Dev nD) (zf : Fin 4194304 → ℝ) (cf : Fin 512 → Fin 64 → ℝ)
    (hz : ∀ n : Fin 4194304, (m ((c.tc : Thread nD τ).loc main_arg1) (ix1 n) : EReal) = ((zf n : ℝ) : EReal))
    (hc : ∀ (k : Fin 512) (d : Fin 64), (m ((c.tc : Thread nD τ).loc main_arg2) (ix2 k d) : EReal) = ((cf k d : ℝ) : EReal)) :
    (dat0 (V1 m ρ) c).arrAt 2 cfg0.N = Q zf cf :=
  (dat0 (V1 m ρ) c).arrAt_eq_of_cover 2 (Q zf cf) (fun t _ => flushed_eq m ρ c zf cf hz hc t) cover

/-- After the first launch the quantizer's output buffer holds, at group `g` and column `d`, the quantizer of the
    flat parameters read 64 to a group: grid point `g / 2048` wrote rows `2048 · (g / 2048) …` of it, each from its own
    block of groups and the whole codebook. -/
theorem W2_main_v1_apply (c : Dev nD) (zf : Fin 4194304 → ℝ) (cf : Fin 512 → Fin 64 → ℝ)
    (hz : ∀ n : Fin 4194304, (m ((c.tc : Thread nD τ).loc main_arg1) (ix1 n) : EReal) = ((zf n : ℝ) : EReal))
    (hc : ∀ (k : Fin 512) (d : Fin 64), (m ((c.tc : Thread nD τ).loc main_arg2) (ix2 k d) : EReal) = ((cf k d : ℝ) : EReal))
    (g : Fin 65536) (d : Fin 64) :
    (W2 (F := Ideal) m ρ c (Proc.devRef .tc main_v1) (ix2 g d) : EReal)
      = ((Cert.Spec.quant (Cert.Result.groups zf) cf g d : ℝ) : EReal) :=
  congrFun ((W2_arr m ρ c 2).trans (final m ρ c zf cf hz hc)) (ix2 g d)

/-- The first launch leaves the activations' buffer as launched. -/
theorem W2_main_arg0 (c : Dev nD) :
    W2 (F := Ideal) m ρ c (Proc.devRef .tc main_arg0) = m ((c.tc : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

end Cert.KernelIdeal.QuantArr

end
-- ==== Proof.KernelMatmul.lean ====
/-
  The matrix-product kernel's body at an entry.

  The body multiplies its activation block by the whole weight matrix into a zero accumulator. Over the extended
  reals that is, at (r, j), the sum over the 2048 shared coordinates k of the block's (r, k) entry times the
  weights' (k, j) entry; the two casts of a value to its own shape change nothing.
-/
import proofs.«111153_g7705171329283_cont_sun_m_1135_5_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Matmul

open Cert.KernelIdeal Cert.KernelIdeal.Gen Idealize.ShloMosaic Idealize.ShloMosaic.ValueIdx
open scoped BigOperators

/-- The left operand's index keeps the output's row … -/
theorem lhs_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- … and takes the shared coordinate as its column. -/
theorem lhs_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
/-- The right operand's index takes the shared coordinate as its row … -/
theorem rhs_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
/-- … and keeps the output's column. -/
theorem rhs_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The body's stored value at (r, j): row `r` of the activation block against column `j` of the weights. -/
theorem k1_pay1_apply (v0 : Vec Ideal S512x2048 .bf16) (v2 : Vec Ideal S2048x2048 .bf16) (r : Fin 512) (j : Fin 2048) :
    k1_pay1 (F := Ideal) v0 v2 (ix2 r j) = ∑ k : Fin 2048, (v0 (ix2 r k) : EReal) * (v2 (ix2 k j) : EReal) := by
  unfold k1_pay1
  rw [shapeCast_self, shapeCast_self]
  refine (Ideal.matmul_constant_zero_apply (φ₁ := .bf16) (φ₂ := .bf16) dot_S512x2048_S2048x2048_S512x2048_1_0_0_1_n_n none v0 v2 (ix2 r j)).trans ?_
  rw [← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 r j) ((contrEquiv1 dot_S512x2048_S2048x2048_S512x2048_1_0_0_1_n_n 2048 rfl rfl).symm k) = ix2 r k := funext fun a => Fin.ext (by
    match a with
    | ⟨0, _⟩ => exact lhs_0 _ _
    | ⟨1, _⟩ => exact (lhs_1 _ _).trans hk)
  have er : dot_S512x2048_S2048x2048_S512x2048_1_0_0_1_n_n.rhsIdx (ix2 r j) ((contrEquiv1 dot_S512x2048_S2048x2048_S512x2048_1_0_0_1_n_n 2048 rfl rfl).symm k) = ix2 k j := funext fun a => Fin.ext (by
    match a with
    | ⟨0, _⟩ => exact (rhs_0 _ _).trans hk
    | ⟨1, _⟩ => exact rhs_1 _ _)
  rw [el, er]

end Cert.KernelIdeal.Matmul

end
-- ==== Proof.KernelValue.lean ====
/-
  The kernel's result array, entry by entry, over real parameters and centroids.
-/
import proofs.«111153_g7705171329283_cont_sun_m_1135_5_alg».proof.Proof.Gen.KernelIdeal.Frame
import proofs.«111153_g7705171329283_cont_sun_m_1135_5_alg».proof.Proof.KernelQuantArr
import proofs.«111153_g7705171329283_cont_sun_m_1135_5_alg».proof.Proof.KernelMatmul
import proofs.«111153_g7705171329283_cont_sun_m_1135_5_alg».proof.Proof.Result
import Idealize.ShloMosaic.Lib.ValueIdx
import Idealize.ShloMosaic.Lib.Pipeline.Value
import Idealize.ShloMosaic.Lib.StableHlo.Run

set_option maxRecDepth 16384

noncomputable section

namespace Cert.KernelIdeal.Arrays

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (m : (ℓ : Loc nD τ sig) → Buf (Elt Ideal) ℓ) (ρ : Dev nD → PrngReg)

/-! ## The second launch, at any contents of the buffers it is entered with -/

section Product

variable (V : (c : Dev nD) → (b : Ref sig .tc) → Buf (Elt Ideal) ((c : Thread nD τ).loc b))

/-- Both offsets of a whole-block access are zero. -/
theorem offsets_zero : (![0, 0] : Fin 2 → Nat) = fun _ => 0 := funext fun a => by
  match a with
  | ⟨0, _⟩ => rfl
  | ⟨1, _⟩ => rfl

/-- The activations as the launch finds them, an 8192 × 2048 array of extended reals. -/
abbrev acts (c : Dev nD) : S8192x2048.Idx → EReal := V c main_v3
/-- The weights as the launch finds them, a 2048 × 2048 array of extended reals. -/
abbrev wts (c : Dev nD) : S2048x2048.Idx → EReal := V c main_v2

/-- The product array: entry (i₀, i₁) is row i₀ of the activations against column i₁ of the weights. -/
abbrev prodArr (c : Dev nD) : S8192x2048.Idx → EReal := fun i =>
  ∑ k : Fin 2048, acts V c (ix2 ⟨(i 0).val, idx2_lt0 i⟩ k) * wts V c (ix2 k ⟨(i 1).val, idx2_lt1 i⟩)

/-- The activation block and the weight block a grid point is given. -/
abbrev actBlk (c : Dev nD) (t : Fin cfg1.N) : Vec Ideal S512x2048 .bf16 := iblk1 V c 0 t
abbrev wtBlk (c : Dev nD) (t : Fin cfg1.N) : Vec Ideal S2048x2048 .bf16 := iblk1 V c 1 t

/-- The block index maps over the 16 points: the activation block moves with the output block down the rows, point
    t at row block t; every other block index is 0. -/
theorem block_index_facts : ∀ t : Fin cfg1.N,
    win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- The activation block at point t holds, at (r, k), the activations' entry in the row the output block's row r is. -/
theorem actBlk_apply (c : Dev nD) (t : Fin cfg1.N) (r : Fin 512) (k : Fin 2048) (i : S8192x2048.Idx)
    (h0 : (i 0).val = win1_2.index t (0 : Fin 2) * 512 + r.val) (h1 : (i 1).val = k.val) :
    actBlk V c t (ix2 r k) = acts V c i := by
  obtain ⟨e0, e1, e2, e3, e4, e5⟩ := block_index_facts t
  show acts V c (((cfg1.win 0).blk t).view.emb (ix2 r k)) = acts V c i
  refine congrArg (acts V c) ?_
  funext a; apply Fin.ext
  match a with
  | ⟨0, _⟩ => show win1_0.index t (0 : Fin 2) * 512 + 1 * r.val = (i 0).val; omega
  | ⟨1, _⟩ => show win1_0.index t (1 : Fin 2) * 2048 + 1 * k.val = (i 1).val; omega

/-- The weight block at every point is the whole weight matrix. -/
theorem wtBlk_apply (c : Dev nD) (t : Fin cfg1.N) (k : Fin 2048) (j : Fin 2048) (i : S2048x2048.Idx)
    (h0 : (i 0).val = k.val) (h1 : (i 1).val = j.val) :
    wtBlk V c t (ix2 k j) = wts V c i := by
  obtain ⟨e0, e1, e2, e3, e4, e5⟩ := block_index_facts t
  show wts V c (((cfg1.win 1).blk t).view.emb (ix2 k j)) = wts V c i
  refine congrArg (wts V c) ?_
  funext a; apply Fin.ext
  match a with
  | ⟨0, _⟩ => show win1_1.index t (0 : Fin 2) * 2048 + 1 * k.val = (i 0).val; omega
  | ⟨1, _⟩ => show win1_1.index t (1 : Fin 2) * 2048 + 1 * j.val = (i 1).val; omega

/-- What point t writes back is block t of the product array. -/
theorem flushed_product (c : Dev nD) (t : Fin cfg1.N) :
    (dat1 V c).flushed 2 t = ((cfg1.win 2).blk t).view.read (Elt Ideal) (prodArr V c) := by
  show (cfg1.win 2).cut (grid1.coords t) ((dat1 V c).after 2 t) = _
  rw [after1_2]
  unfold out1_2
  rw [View.canon_unit_zero offsets_zero]
  simp only [View.ld_unit_zero (S := S512x2048) offsets_zero, View.ld_unit_zero (S := S2048x2048) offsets_zero]
  funext y
  obtain ⟨r, j, rfl⟩ : ∃ (r : Fin 512) (j : Fin 2048), y = ix2 r j := ⟨y 0, y 1, eq_ix2 y⟩
  show k1_pay1 (F := Ideal) (actBlk V c t) (wtBlk V c t) (ix2 r j) = prodArr V c (((cfg1.win 2).blk t).view.emb (ix2 r j))
  refine (Cert.KernelIdeal.Matmul.k1_pay1_apply (actBlk V c t) (wtBlk V c t) r j).trans ?_
  refine Finset.sum_congr rfl fun k _ => ?_
  have ha : actBlk V c t (ix2 r k) = acts V c (ix2 ⟨((((cfg1.win 2).blk t).view.emb (ix2 r j)) 0).val, idx2_lt0 _⟩ k) :=
    actBlk_apply V c t r k _ (by show win1_2.index t (0 : Fin 2) * 512 + 1 * r.val = _; omega) rfl
  have hw : wtBlk V c t (ix2 k j) = wts V c (ix2 k ⟨((((cfg1.win 2).blk t).view.emb (ix2 r j)) 1).val, idx2_lt1 _⟩) :=
    wtBlk_apply V c t k j _ rfl (by
      obtain ⟨e0, e1, e2, e3, e4, e5⟩ := block_index_facts t
      show win1_2.index t (1 : Fin 2) * 2048 + 1 * j.val = j.val; omega)
  exact congrArg₂ (· * ·) ha hw

/-- An index of the result array is in point t's block iff each coordinate is in the block's range on its axis. -/
theorem mem_result_block (t : Fin cfg1.N) (i : S8192x2048.Idx) :
    i ∈ ((cfg1.win 2).blk t).view.set ↔ ∀ a : Fin 2, win1_2.index t a * S512x2048.size a ≤ (i a).val ∧ (i a).val < win1_2.index t a * S512x2048.size a + S512x2048.size a := by
  show i ∈ ((View.whole main_v4).slice (win1_2.rect t)).set ↔ _
  rw [View.set_slice_whole, Rect.mem_set_unit]
  exact Iff.rfl

/-- Row i₀ of the result array is written by point i₀ / 512. -/
theorem result_covered (i : S8192x2048.Idx) :
    ∃ t : Fin cfg1.N, (cfg1.win 2).flush t = true ∧ i ∈ ((cfg1.win 2).blk t).view.set := by
  have hi0 : (i 0).val < 8192 := (i 0).isLt
  have hi1 : (i 1).val < 2048 := (i 1).isLt
  have hlt : (i 0).val / 512 < grid1.N := by rw [N_1]; omega
  refine ⟨⟨(i 0).val / 512, hlt⟩, flush1_2 _, ?_⟩
  rw [mem_result_block]
  obtain ⟨e0, e1, e2, e3, e4, e5⟩ := block_index_facts ⟨(i 0).val / 512, hlt⟩
  have e5' : win1_2.index ⟨(i 0).val / 512, hlt⟩ (0 : Fin 2) = (i 0).val / 512 := e5
  intro a
  match a with
  | ⟨0, _⟩ =>
    show win1_2.index ⟨(i 0).val / 512, _⟩ (0 : Fin 2) * 512 ≤ (i 0).val ∧ (i 0).val < win1_2.index ⟨(i 0).val / 512, _⟩ (0 : Fin 2) * 512 + 512
    rw [e5']; omega
  | ⟨1, _⟩ =>
    show win1_2.index ⟨(i 0).val / 512, _⟩ (1 : Fin 2) * 2048 ≤ (i 1).val ∧ (i 1).val < win1_2.index ⟨(i 0).val / 512, _⟩ (1 : Fin 2) * 2048 + 2048
    rw [e4]; omega

/-- The result array after the launch is the product array. -/
theorem result_array_eq (c : Dev nD) : (dat1 V c).arrAt 2 cfg1.N = prodArr V c :=
  (dat1 V c).arrAt_eq_of_cover 2 (prodArr V c) (fun t _ => flushed_product V c t) result_covered

end Product

/-! ## The second launch in the run -/

/-- Between the launches the quantized parameters, 65536 groups of 64, are re-read 2048 to a row. -/
theorem V3_main_v2 (c : Dev nD) : (V3 m ρ c main_v2 : S2048x2048.Idx → EReal) = shapeCast _ (W2 m ρ c (Proc.devRef .tc main_v1)) shapeCasts_S65536x64_S2048x2048 := by
  dsimp only [V3, W3, hostOps1]; after_results; rfl

/-- Between the launches the activations are rounded to the narrower format, which over the extended reals changes nothing. -/
theorem V3_main_v3 (c : Dev nD) : (V3 m ρ c main_v3 : S8192x2048.Idx → EReal) = (W2 m ρ c (Proc.devRef .tc main_arg0) : S8192x2048.Idx → EReal) := by
  dsimp only [V3, W3, hostOps1]; after_results; rfl

/-- The activations the second launch finds are the activations as launched. -/
theorem acts_apply (c : Dev nD) (p : Fin 8192) (k : Fin 2048) :
    acts (V3 m ρ) c (ix2 p k) = (m ((c.tc : Thread nD τ).loc main_arg0) (ix2 p k) : EReal) :=
  congrFun ((V3_main_v3 m ρ c).trans (Cert.KernelIdeal.QuantArr.W2_main_arg0 m ρ c)) (ix2 p k)

/-- The weights the second launch finds, at (k, j): flat position k · 2048 + j of the quantized parameters, that is
    column (k · 2048 + j) mod 64 of group (k · 2048 + j) / 64. -/
theorem wts_apply (c : Dev nD) (zf : Fin 4194304 → ℝ) (cf : Fin 512 → Fin 64 → ℝ)
    (hz : ∀ n : Fin 4194304, (m ((c.tc : Thread nD τ).loc main_arg1) (ix1 n) : EReal) = ((zf n : ℝ) : EReal))
    (hc : ∀ (k : Fin 512) (d : Fin 64), (m ((c.tc : Thread nD τ).loc main_arg2) (ix2 k d) : EReal) = ((cf k d : ℝ) : EReal))
    (k j : Fin 2048) :
    wts (V3 m ρ) c (ix2 k j) = ((Cert.Result.weight zf cf k j : ℝ) : EReal) := by
  have e : wts (V3 m ρ) c (ix2 k j)
      = (W2 m ρ c (Proc.devRef .tc main_v1) : S65536x64.Idx → EReal) (ix2 (Cert.Result.wRow k j) (Cert.Result.wCol k j)) := by
    refine (congrFun (V3_main_v2 m ρ c) (ix2 k j)).trans ?_
    refine shapeCast_apply _ _ (ix2 k j) (ix2 (Cert.Result.wRow k j) (Cert.Result.wCol k j)) ?_
    rw [Shape.rowMajor_val_two, Shape.rowMajor_val_two]
    show (k.val * 2048 + j.val) / 64 * 64 + (k.val * 2048 + j.val) % 64 = k.val * 2048 + j.val
    omega
  exact e.trans (Cert.KernelIdeal.QuantArr.W2_main_v1_apply m ρ c zf cf hz hc _ _)

/-- The result buffer at the last boundary, at entry (p, q): the activations' row `p` against column `q` of the
    weight matrix made of the quantized parameters. -/
theorem W4_main_v4_apply (c : Dev nD) (zf : Fin 4194304 → ℝ) (cf : Fin 512 → Fin 64 → ℝ)
    (hz : ∀ n : Fin 4194304, (m ((c.tc : Thread nD τ).loc main_arg1) (ix1 n) : EReal) = ((zf n : ℝ) : EReal))
    (hc : ∀ (k : Fin 512) (d : Fin 64), (m ((c.tc : Thread nD τ).loc main_arg2) (ix2 k d) : EReal) = ((cf k d : ℝ) : EReal))
    (p : Fin 8192) (q : Fin 2048) :
    (W4 (F := Ideal) m ρ c (Proc.devRef .tc main_v4) (ix2 p q) : EReal)
      = Cert.Result.result (fun i k => (m ((c.tc : Thread nD τ).loc main_arg0) (ix2 i k) : EReal)) zf cf p q := by
  have h4 : W4 (F := Ideal) m ρ c (Proc.devRef .tc main_v4) = prodArr (V3 m ρ) c :=
    (W4_arr m ρ c 2).trans (result_array_eq (V3 m ρ) c)
  have key : prodArr (V3 m ρ) c (ix2 p q)
      = Cert.Result.result (fun i k => (m ((c.tc : Thread nD τ).loc main_arg0) (ix2 i k) : EReal)) zf cf p q := by
    unfold Cert.Result.result
    refine Finset.sum_congr rfl fun k _ => ?_
    exact congrArg₂ (· * ·) (acts_apply m ρ c p k) (wts_apply m ρ c zf cf hz hc k q)
  exact (congrFun h4 (ix2 p q)).trans key

end Cert.KernelIdeal.Arrays

end
-- ==== Proof.RefQuant.lean ====
/-
  The reference's quantizer stage at an entry, over real inputs.
-/
import proofs.«111153_g7705171329283_cont_sun_m_1135_5_alg».proof.Proof.Gen.ReferenceIdeal.Read
import proofs.«111153_g7705171329283_cont_sun_m_1135_5_alg».proof.Proof.Spec
import proofs.«111153_g7705171329283_cont_sun_m_1135_5_alg».proof.Proof.Result
import proofs.«111153_g7705171329283_cont_sun_m_1135_5_alg».proof.Proof.LibERealArith
import Idealize.ShloMosaic.Lib.ValueIdx
import Idealize.ShloMosaic.Lib.Pipeline.Value
import Idealize.ShloMosaic.PureOps.Ideal.Laws

noncomputable section

namespace Cert.ReferenceIdeal.Quant

open Cert.ReferenceIdeal Cert.ReferenceIdeal.Gen Cert.ReferenceIdeal.Read Idealize.ShloMosaic Idealize.ShloMosaic.ValueIdx
open scoped BigOperators

/-- The literal 2.0 is the real number two. -/
theorem ofBits_two : Ideal.ofBits .f32 0x40000000#32 = ((2 : ℝ) : EReal) := by
  simp [Ideal.ofBits, Ideal.ieee, -EReal.coe_mul]; norm_num

/-- The literal -∞ is the bottom of the extended reals. -/
theorem ofBits_neg_inf : Ideal.ofBits .f32 0xFF800000#32 = (⊥ : EReal) := by
  simp [Ideal.ofBits, Ideal.ieee]

section Stages

variable (zf : Fin 4194304 → ℝ) (cf : Fin 512 → Fin 64 → ℝ)
  (x1 : (⟨S4194304, .f32⟩ : BufTy).Contents (Elt Ideal)) (x2 : (⟨S512x64, .f32⟩ : BufTy).Contents (Elt Ideal))
  (h1 : ∀ n : Fin 4194304, (x1 (ix1 n) : EReal) = ((zf n : ℝ) : EReal))
  (h2 : ∀ (k : Fin 512) (d : Fin 64), (x2 (ix2 k d) : EReal) = ((cf k d : ℝ) : EReal))

include h1 in
/-- The parameters in groups of 64. -/
theorem v0_real (g : Fin 65536) (d : Fin 64) :
    (val_main_v0 (F := Ideal) x1 (ix2 g d) : EReal) = ((Cert.Result.groups zf g d : ℝ) : EReal) := by
  rw [val_main_v0_apply]
  have e : idx_main_v0 (ix2 g d) = ix1 (⟨g.val * 64 + d.val, by have := g.isLt; have := d.isLt; omega⟩ : Fin 4194304) :=
    funext fun a => Fin.ext (by match a with | ⟨0, _⟩ => rfl)
  rw [e, h1]
  rfl

include h1 in
/-- Their squares. -/
theorem v1_real (g : Fin 65536) (d : Fin 64) :
    (val_main_v1 (F := Ideal) x1 (ix2 g d) : EReal)
      = ((Cert.Result.groups zf g d * Cert.Result.groups zf g d : ℝ) : EReal) := by
  rw [val_main_v1_apply, v0_real zf x1 h1]
  exact Cert.Lib.ERealArith.mul_coe _ _

include h1 in
/-- ‖z g‖². -/
theorem v2_real (g : Fin 65536) :
    (val_main_v2 (F := Ideal) x1 (ix1 g) : EReal) = ((Cert.Spec.zsq (Cert.Result.groups zf) g : ℝ) : EReal) := by
  rw [val_main_v2_apply, val_main_cst_apply]
  have e : ∀ k : Fin 64, idx_main_v2 (ix1 g) k = ix2 g k := fun k =>
    funext fun a => Fin.ext (by match a with | ⟨0, _⟩ => rfl | ⟨1, _⟩ => rfl)
  simp only [e, v1_real zf x1 h1]
  rw [Cert.Lib.ERealArith.univ_sum_coe]
  show Ideal.ofBits .f32 0x00000000#32 + _ = _
  rw [Cert.Lib.ERealArith.ofBits_zero, Cert.Lib.ERealArith.add_coe, zero_add]
  rfl

include h1 in
/-- ‖z g‖² along a row. -/
theorem v8_real (g : Fin 65536) (k : Fin 512) :
    (val_main_v8 (F := Ideal) x1 (ix2 g k) : EReal) = ((Cert.Spec.zsq (Cert.Result.groups zf) g : ℝ) : EReal) := by
  rw [val_main_v8_apply, val_main_v3_apply]
  have e : idx_main_v3 (idx_main_v8 (ix2 g k)) = ix1 g :=
    funext fun a => Fin.ext (by match a with | ⟨0, _⟩ => rfl)
  rw [e, v2_real zf x1 h1]

include h2 in
/-- The centroids transposed. -/
theorem v4_real (d : Fin 64) (k : Fin 512) :
    (val_main_v4 (F := Ideal) x2 (ix2 d k) : EReal) = ((cf k d : ℝ) : EReal) := by
  rw [val_main_v4_apply]
  have e : idx_main_v4 (ix2 d k) = ix2 k d :=
    funext fun a => Fin.ext (by match a with | ⟨0, _⟩ => rfl | ⟨1, _⟩ => rfl)
  rw [e, h2]

include h1 h2 in
/-- ⟨z g, c k⟩. -/
theorem v5_real (g : Fin 65536) (k : Fin 512) :
    (val_main_v5 (F := Ideal) x1 x2 (ix2 g k) : EReal)
      = ((Cert.Spec.zc (Cert.Result.groups zf) cf g k : ℝ) : EReal) := by
  rw [val_main_v5_apply]
  have el : ∀ d : Fin 64, lidx_main_v5 (ix2 g k) d = ix2 g d := fun d =>
    funext fun a => Fin.ext (by match a with | ⟨0, _⟩ => rfl | ⟨1, _⟩ => rfl)
  have er : ∀ d : Fin 64, ridx_main_v5 (ix2 g k) d = ix2 d k := fun d =>
    funext fun a => Fin.ext (by match a with | ⟨0, _⟩ => rfl | ⟨1, _⟩ => rfl)
  simp only [el, er, v0_real zf x1 h1, v4_real cf x2 h2, Cert.Lib.ERealArith.mul_coe]
  rw [Cert.Lib.ERealArith.univ_sum_coe]
  rfl

/-- The constant two along the logits' shape. -/
theorem v6_real (i : S65536x512.Idx) : (val_main_v6 (F := Ideal) i : EReal) = ((2 : ℝ) : EReal) := by
  rw [val_main_v6_apply, val_main_cst_0_apply]
  exact ofBits_two

include h1 h2 in
/-- 2 ⟨z g, c k⟩. -/
theorem v7_real (g : Fin 65536) (k : Fin 512) :
    (val_main_v7 (F := Ideal) x1 x2 (ix2 g k) : EReal)
      = ((2 * Cert.Spec.zc (Cert.Result.groups zf) cf g k : ℝ) : EReal) := by
  rw [val_main_v7_apply, v6_real, v5_real zf cf x1 x2 h1 h2]
  exact Cert.Lib.ERealArith.mul_coe _ _

include h1 h2 in
/-- ‖z g‖² − 2 ⟨z g, c k⟩. -/
theorem v9_real (g : Fin 65536) (k : Fin 512) :
    (val_main_v9 (F := Ideal) x1 x2 (ix2 g k) : EReal)
      = ((Cert.Spec.zsq (Cert.Result.groups zf) g - 2 * Cert.Spec.zc (Cert.Result.groups zf) cf g k : ℝ) : EReal) := by
  rw [val_main_v9_apply, v8_real zf x1 h1, v7_real zf cf x1 x2 h1 h2]
  exact Cert.Lib.ERealArith.sub_coe _ _

include h2 in
/-- The centroids' squares. -/
theorem v10_real (k : Fin 512) (d : Fin 64) :
    (val_main_v10 (F := Ideal) x2 (ix2 k d) : EReal) = ((cf k d * cf k d : ℝ) : EReal) := by
  rw [val_main_v10_apply, h2]
  exact Cert.Lib.ERealArith.mul_coe _ _

include h2 in
/-- ‖c k‖². -/
theorem v11_real (k : Fin 512) :
    (val_main_v11 (F := Ideal) x2 (ix1 k) : EReal) = ((Cert.Spec.csq cf k : ℝ) : EReal) := by
  rw [val_main_v11_apply, val_main_cst_1_apply]
  have e : ∀ d : Fin 64, idx_main_v11 (ix1 k) d = ix2 k d := fun d =>
    funext fun a => Fin.ext (by match a with | ⟨0, _⟩ => rfl | ⟨1, _⟩ => rfl)
  simp only [e, v10_real cf x2 h2]
  rw [Cert.Lib.ERealArith.univ_sum_coe]
  show Ideal.ofBits .f32 0x00000000#32 + _ = _
  rw [Cert.Lib.ERealArith.ofBits_zero, Cert.Lib.ERealArith.add_coe, zero_add]
  rfl

include h2 in
/-- ‖c k‖² down a column. -/
theorem v13_real (g : Fin 65536) (k : Fin 512) :
    (val_main_v13 (F := Ideal) x2 (ix2 g k) : EReal) = ((Cert.Spec.csq cf k : ℝ) : EReal) := by
  rw [val_main_v13_apply, val_main_v12_apply]
  have e : idx_main_v12 (idx_main_v13 (ix2 g k)) = ix1 k :=
    funext fun a => Fin.ext (by match a with | ⟨0, _⟩ => rfl)
  rw [e, v11_real cf x2 h2]

include h1 h2 in
/-- The squared distance ‖z g − c k‖², expanded. -/
theorem v14_real (g : Fin 65536) (k : Fin 512) :
    (val_main_v14 (F := Ideal) x1 x2 (ix2 g k) : EReal)
      = (((Cert.Spec.zsq (Cert.Result.groups zf) g - 2 * Cert.Spec.zc (Cert.Result.groups zf) cf g k)
            + Cert.Spec.csq cf k : ℝ) : EReal) := by
  rw [val_main_v14_apply, v9_real zf cf x1 x2 h1 h2, v13_real cf x2 h2]
  exact Cert.Lib.ERealArith.add_coe _ _

include h1 h2 in
/-- Its negative. -/
theorem v15_real (g : Fin 65536) (k : Fin 512) :
    (val_main_v15 (F := Ideal) x1 x2 (ix2 g k) : EReal)
      = ((-((Cert.Spec.zsq (Cert.Result.groups zf) g - 2 * Cert.Spec.zc (Cert.Result.groups zf) cf g k)
            + Cert.Spec.csq cf k) : ℝ) : EReal) := by
  rw [val_main_v15_apply, v14_real zf cf x1 x2 h1 h2]
  exact Cert.Lib.ERealArith.neg_coe _

/-- The temperature one along the logits' shape. -/
theorem v16_real (i : S65536x512.Idx) : (val_main_v16 (F := Ideal) i : EReal) = ((1 : ℝ) : EReal) := by
  rw [val_main_v16_apply, val_main_cst_2_apply]
  exact Cert.Lib.ERealArith.ofBits_one

include h1 h2 in
/-- The logit. -/
theorem v17_real (g : Fin 65536) (k : Fin 512) :
    (val_main_v17 (F := Ideal) x1 x2 (ix2 g k) : EReal)
      = ((Cert.Spec.rlogit (Cert.Result.groups zf) cf g k : ℝ) : EReal) := by
  rw [val_main_v17_apply, v15_real zf cf x1 x2 h1 h2, v16_real]
  exact Cert.Lib.ERealArith.div_coe one_ne_zero _

include h1 h2 in
/-- The largest logit of a row. -/
theorem v18_real (g : Fin 65536) :
    (val_main_v18 (F := Ideal) x1 x2 (ix1 g) : EReal)
      = ((Cert.Spec.rrowMax (Cert.Result.groups zf) cf g : ℝ) : EReal) := by
  unfold val_main_v18
  rw [Host.reduce_eq_fold_single FloatOps.maximumf _ _ reducesTo_S65536x512_S65536_d1 (by decide) h_S_]
  have e : (val_main_v17 (F := Ideal) x1 x2 ∘
      Shape.Reduces.lift (s := S65536x512) (t := S65536) (a := (1 : Fin 2)) (by decide) (ix1 g))
        = fun k : Fin 512 => ((Cert.Spec.rlogit (Cert.Result.groups zf) cf g k : ℝ) : EReal) := by
    funext k
    exact (congrArg (val_main_v17 (F := Ideal) x1 x2)
      (funext fun a => Fin.ext (by match a with | ⟨0, _⟩ => rfl | ⟨1, _⟩ => rfl))).trans
      (v17_real zf cf x1 x2 h1 h2 g k)
  rw [e, val_main_cst_3_apply]
  show Finset.univ.fold max (Ideal.ofBits .f32 0xFF800000#32) _ = _
  rw [ofBits_neg_inf]
  exact Cert.Spec.fold_max_bot_coe (K := Fin 512) _

include h1 h2 in
/-- The maximum against -∞ changes nothing. -/
theorem v20_real (g : Fin 65536) :
    (val_main_v20 (F := Ideal) x1 x2 (ix1 g) : EReal)
      = ((Cert.Spec.rrowMax (Cert.Result.groups zf) cf g : ℝ) : EReal) := by
  rw [val_main_v20_apply, val_main_v19_apply, val_main_cst_4_apply, v18_real zf cf x1 x2 h1 h2]
  show max (Ideal.ofBits .f32 0xFF800000#32) _ = _
  rw [ofBits_neg_inf]
  exact max_eq_right bot_le

include h1 h2 in
/-- The row's maximum along the row. -/
theorem v22_real (g : Fin 65536) (k : Fin 512) :
    (val_main_v22 (F := Ideal) x1 x2 (ix2 g k) : EReal)
      = ((Cert.Spec.rrowMax (Cert.Result.groups zf) cf g : ℝ) : EReal) := by
  rw [val_main_v22_apply, val_main_v21_apply]
  have e : idx_main_v21 (idx_main_v22 (ix2 g k)) = ix1 g :=
    funext fun a => Fin.ext (by match a with | ⟨0, _⟩ => rfl)
  rw [e, v20_real zf cf x1 x2 h1 h2]

include h1 h2 in
/-- The shifted logit. -/
theorem v23_real (g : Fin 65536) (k : Fin 512) :
    (val_main_v23 (F := Ideal) x1 x2 (ix2 g k) : EReal)
      = ((Cert.Spec.rlogit (Cert.Result.groups zf) cf g k - Cert.Spec.rrowMax (Cert.Result.groups zf) cf g : ℝ) : EReal) := by
  rw [val_main_v23_apply, v17_real zf cf x1 x2 h1 h2, v22_real zf cf x1 x2 h1 h2]
  exact Cert.Lib.ERealArith.sub_coe _ _

include h1 h2 in
/-- The shifted exponential. -/
theorem v24_real (g : Fin 65536) (k : Fin 512) :
    (val_main_v24 (F := Ideal) x1 x2 (ix2 g k) : EReal)
      = ((Cert.Spec.rex (Cert.Result.groups zf) cf g k : ℝ) : EReal) := by
  rw [val_main_v24_apply, v23_real zf cf x1 x2 h1 h2]
  refine (Ideal.hostUnary_exp_def (φ := .f32) _).trans ?_
  rw [Ideal.exp_coe]
  rfl

include h1 h2 in
/-- The normaliser. -/
theorem v25_real (g : Fin 65536) :
    (val_main_v25 (F := Ideal) x1 x2 (ix1 g) : EReal)
      = ((Cert.Spec.rden (Cert.Result.groups zf) cf g : ℝ) : EReal) := by
  rw [val_main_v25_apply, val_main_cst_5_apply]
  have e : ∀ k : Fin 512, idx_main_v25 (ix1 g) k = ix2 g k := fun k =>
    funext fun a => Fin.ext (by match a with | ⟨0, _⟩ => rfl | ⟨1, _⟩ => rfl)
  simp only [e, v24_real zf cf x1 x2 h1 h2]
  rw [Cert.Lib.ERealArith.univ_sum_coe]
  show Ideal.ofBits .f32 0x00000000#32 + _ = _
  rw [Cert.Lib.ERealArith.ofBits_zero, Cert.Lib.ERealArith.add_coe, zero_add]
  rfl

include h1 h2 in
/-- The normaliser along the row. -/
theorem v27_real (g : Fin 65536) (k : Fin 512) :
    (val_main_v27 (F := Ideal) x1 x2 (ix2 g k) : EReal)
      = ((Cert.Spec.rden (Cert.Result.groups zf) cf g : ℝ) : EReal) := by
  rw [val_main_v27_apply, val_main_v26_apply]
  have e : idx_main_v26 (idx_main_v27 (ix2 g k)) = ix1 g :=
    funext fun a => Fin.ext (by match a with | ⟨0, _⟩ => rfl)
  rw [e, v25_real zf cf x1 x2 h1 h2]

include h1 h2 in
/-- The softmax weight. -/
theorem v28_real (g : Fin 65536) (k : Fin 512) :
    (val_main_v28 (F := Ideal) x1 x2 (ix2 g k) : EReal)
      = ((Cert.Spec.rex (Cert.Result.groups zf) cf g k / Cert.Spec.rden (Cert.Result.groups zf) cf g : ℝ) : EReal) := by
  rw [val_main_v28_apply, v24_real zf cf x1 x2 h1 h2, v27_real zf cf x1 x2 h1 h2]
  have hpos : Cert.Spec.rden (Cert.Result.groups zf) cf g ≠ 0 := by
    rw [Cert.Spec.rden_eq]; exact (Cert.Spec.den_pos _ _ _).ne'
  exact Cert.Lib.ERealArith.div_coe hpos _

end Stages

/-- The quantized parameters (the stage before the two reshapes) at group `g`, column `d`, when the flat parameter
    vector holds the reals `zf` and the centroids the reals `cf`: the quantizer in its full-distance form. -/
theorem val_main_v29_apply_real (zf : Fin 4194304 → ℝ) (cf : Fin 512 → Fin 64 → ℝ)
    (x1 : (⟨S4194304, .f32⟩ : BufTy).Contents (Elt Ideal)) (x2 : (⟨S512x64, .f32⟩ : BufTy).Contents (Elt Ideal))
    (h1 : ∀ n : Fin 4194304, (x1 (ix1 n) : EReal) = ((zf n : ℝ) : EReal))
    (h2 : ∀ (k : Fin 512) (d : Fin 64), (x2 (ix2 k d) : EReal) = ((cf k d : ℝ) : EReal))
    (g : Fin 65536) (d : Fin 64) :
    (val_main_v29 (F := Ideal) x1 x2 (ix2 g d) : EReal) = ((Cert.Spec.rquant (Cert.Result.groups zf) cf g d : ℝ) : EReal) := by
  rw [val_main_v29_apply]
  have el : ∀ k : Fin 512, lidx_main_v29 (ix2 g d) k = ix2 g k := fun k =>
    funext fun a => Fin.ext (by match a with | ⟨0, _⟩ => rfl | ⟨1, _⟩ => rfl)
  have er : ∀ k : Fin 512, ridx_main_v29 (ix2 g d) k = ix2 k d := fun k =>
    funext fun a => Fin.ext (by match a with | ⟨0, _⟩ => rfl | ⟨1, _⟩ => rfl)
  simp only [el, er, v28_real zf cf x1 x2 h1 h2, h2, Cert.Lib.ERealArith.mul_coe]
  rw [Cert.Lib.ERealArith.univ_sum_coe]
  rfl

end Cert.ReferenceIdeal.Quant

end
-- ==== Proof.RefValue.lean ====
/-
  The reference's result array, entry by entry, over real parameters and centroids.

  The quantized parameters are flattened and read again 2048 to a row: entry (k, j) of the weight matrix is flat
  position k · 2048 + j, which lies in group (k · 2048 + j) / 64 at column (k · 2048 + j) mod 64. The last product
  sums, over the 2048 shared coordinates, the activations' entries times the weights'. The quantizer's two
  forms agree on real inputs (`Cert.Spec.rquant_eq_quant`).
-/
import proofs.«111153_g7705171329283_cont_sun_m_1135_5_alg».proof.Proof.RefQuant

noncomputable section

namespace Cert.ReferenceIdeal.Arrays

open Cert.ReferenceIdeal Cert.ReferenceIdeal.Gen Cert.ReferenceIdeal.Read Idealize.ShloMosaic Idealize.ShloMosaic.ValueIdx
open scoped BigOperators

/-- The weight matrix at (k, j): the quantizer at the group and column that flat position k · 2048 + j falls in. -/
theorem val_main_v31_apply_real (zf : Fin 4194304 → ℝ) (cf : Fin 512 → Fin 64 → ℝ)
    (x1 : (⟨S4194304, .f32⟩ : BufTy).Contents (Elt Ideal)) (x2 : (⟨S512x64, .f32⟩ : BufTy).Contents (Elt Ideal))
    (h1 : ∀ n : Fin 4194304, (x1 (ix1 n) : EReal) = ((zf n : ℝ) : EReal))
    (h2 : ∀ (k : Fin 512) (d : Fin 64), (x2 (ix2 k d) : EReal) = ((cf k d : ℝ) : EReal))
    (k j : Fin 2048) :
    (val_main_v31 (F := Ideal) x1 x2 (ix2 k j) : EReal) = ((Cert.Result.weight zf cf k j : ℝ) : EReal) := by
  rw [val_main_v31_apply, val_main_v30_apply]
  have e : idx_main_v30 (idx_main_v31 (ix2 k j)) = ix2 (Cert.Result.wRow k j) (Cert.Result.wCol k j) :=
    funext fun a => Fin.ext (by match a with | ⟨0, _⟩ => rfl | ⟨1, _⟩ => rfl)
  rw [e]
  refine (Cert.ReferenceIdeal.Quant.val_main_v29_apply_real zf cf x1 x2 h1 h2 _ _).trans ?_
  rw [Cert.Spec.rquant_eq_quant]
  rfl

/-- The reference's result at entry (p, q): the activations' row `p` against column `q` of the weight matrix made of
    the quantized parameters. -/
theorem val_main_v32_apply_real (zf : Fin 4194304 → ℝ) (cf : Fin 512 → Fin 64 → ℝ)
    (x0 : (⟨S8192x2048, .f32⟩ : BufTy).Contents (Elt Ideal))
    (x1 : (⟨S4194304, .f32⟩ : BufTy).Contents (Elt Ideal)) (x2 : (⟨S512x64, .f32⟩ : BufTy).Contents (Elt Ideal))
    (h1 : ∀ n : Fin 4194304, (x1 (ix1 n) : EReal) = ((zf n : ℝ) : EReal))
    (h2 : ∀ (k : Fin 512) (d : Fin 64), (x2 (ix2 k d) : EReal) = ((cf k d : ℝ) : EReal))
    (p : Fin 8192) (q : Fin 2048) :
    (val_main_v32 (F := Ideal) x0 x1 x2 (ix2 p q) : EReal)
      = Cert.Result.result (fun i k => (x0 (ix2 i k) : EReal)) zf cf p q := by
  rw [val_main_v32_apply]
  unfold Cert.Result.result
  refine Finset.sum_congr rfl fun k _ => ?_
  have el : lidx_main_v32 (ix2 p q) k = ix2 p k := funext fun a => Fin.ext (by match a with | ⟨0, _⟩ => rfl | ⟨1, _⟩ => rfl)
  have er : ridx_main_v32 (ix2 p q) k = ix2 k q := funext fun a => Fin.ext (by match a with | ⟨0, _⟩ => rfl | ⟨1, _⟩ => rfl)
  rw [el, er]
  exact congrArg (fun w : EReal => (x0 (ix2 p k) : EReal) * w) (val_main_v31_apply_real zf cf x1 x2 h1 h2 k q)

end Cert.ReferenceIdeal.Arrays

end
-- ==== Proof.Finite.lean ====
/-
  Finite inputs are real numbers.
-/
import proofs.«111153_g7705171329283_cont_sun_m_1135_5_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

variable [Cert.Pre_finite_inputs.Facts]

/-- The f32 pattern with all-ones exponent and zero significand denotes +∞. -/
theorem ofBits_inf : Ideal.ofBits .f32 0x7F800000#32 = (⊤ : EReal) := by
  simp [Ideal.ofBits, Ideal.ieee]

/-- Among the extended reals, |x| < +∞ holds only at the reals: |⊥| = |⊤| = ⊤. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- Where the precondition holds, every parameter and every centroid entry is a real number (|x| < +∞ leaves
    only the reals among the extended reals). -/
theorem real_of_pre (a0 : FVec Ideal S8192x2048 .f32) (a1 : FVec Ideal S4194304 .f32) (a2 : FVec Ideal S512x64 .f32)
    (h : Cert.Pre_finite_inputs.fn (F := Ideal) a0 a1 a2 = fun _ => 1#1) :
    (∀ i, ∃ r : ℝ, (a1 i : EReal) = (r : EReal)) ∧ (∀ i, ∃ r : ℝ, (a2 i : EReal) = (r : EReal)) := by
  -- the rank-0 result shape has one index
  haveI : Subsingleton S_.Idx := ⟨fun a b => funext fun d => d.elim0⟩
  have h' := congrFun h ValueIdx.ix0
  dsimp only [Cert.Pre_finite_inputs.fn] at h'
  obtain ⟨h01, h2⟩ := IntOp.andi_eq_one.1 h'
  obtain ⟨h0, h1⟩ := IntOp.andi_eq_one.1 h01
  refine ⟨fun i => ?_, fun i => ?_⟩
  · have e := Host.reduce_andi_all _ _ _ _ _ h1 i
    refine real_of_abs_lt_top (a1 i) ?_
    rw [← ofBits_inf]
    exact e
  · have e := Host.reduce_andi_all _ _ _ _ _ h2 i
    refine real_of_abs_lt_top (a2 i) ?_
    rw [← ofBits_inf]
    exact e

end Cert.Finite

end
-- ==== Proof.lean ====
/-
  Soft vector quantization of a flat parameter vector against a codebook, the quantized parameters laid out as a
  2048 × 2048 weight matrix, and the activations multiplied by it: a kernel in two launches against a plain
  reference.

  The kernel's first launch quantizes 2048 groups of 64 parameters per grid point. For a group z and the
  centroids c_k it forms the logits 2⟨z, c_k⟩ − ‖c_k‖², subtracts their maximum, exponentiates, and divides the
  exponentials' combination of the centroids by their sum. The reference takes the softmax of the negated squared
  distances ‖z‖² − 2⟨z, c_k⟩ + ‖c_k‖² and combines the centroids with the normalised weights. Where parameters
  and centroids are real numbers — which is what the precondition says — ‖z‖² is a real number that does not
  depend on k: it cancels between a logit and the row's maximum, the two exponentials agree, and dividing a
  combination by a positive real is combining the quotients (`Cert.Spec.rquant_eq_quant`). The second launch
  and the reference's last product are the same sums of 2048 products over the same weight matrix, whatever
  the activations hold. The word-level kernel and its idealization run and leave their arguments as they were
  (the generated frames); no rewrite was applied in idealizing, so the idealization's soundness is trivial.
-/
import proofs.«111153_g7705171329283_cont_sun_m_1135_5_alg».proof.Defs
import proofs.«111153_g7705171329283_cont_sun_m_1135_5_alg».proof.Proof.Gen.Kernel
import proofs.«111153_g7705171329283_cont_sun_m_1135_5_alg».proof.Proof.Gen.Kernel.Skeleton
import proofs.«111153_g7705171329283_cont_sun_m_1135_5_alg».proof.Proof.Gen.Kernel.Launch
import proofs.«111153_g7705171329283_cont_sun_m_1135_5_alg».proof.Proof.Gen.Kernel.Points
import proofs.«111153_g7705171329283_cont_sun_m_1135_5_alg».proof.Proof.Gen.Kernel.Frame
import proofs.«111153_g7705171329283_cont_sun_m_1135_5_alg».proof.Proof.Gen.KernelIdeal
import proofs.«111153_g7705171329283_cont_sun_m_1135_5_alg».proof.Proof.Gen.KernelIdeal.Skeleton
import proofs.«111153_g7705171329283_cont_sun_m_1135_5_alg».proof.Proof.Gen.KernelIdeal.Launch
import proofs.«111153_g7705171329283_cont_sun_m_1135_5_alg».proof.Proof.Gen.KernelIdeal.Points
import proofs.«111153_g7705171329283_cont_sun_m_1135_5_alg».proof.Proof.Gen.KernelIdeal.Frame
import proofs.«111153_g7705171329283_cont_sun_m_1135_5_alg».proof.Proof.Gen.ReferenceIdeal
import proofs.«111153_g7705171329283_cont_sun_m_1135_5_alg».proof.Proof.Gen.Pre_finite_inputs
import proofs.«111153_g7705171329283_cont_sun_m_1135_5_alg».proof.Proof.Gen.ReferenceIdeal.Run
import proofs.«111153_g7705171329283_cont_sun_m_1135_5_alg».proof.Proof.Gen.ReferenceIdeal.Read
import proofs.«111153_g7705171329283_cont_sun_m_1135_5_alg».proof.Proof.KernelRun
import proofs.«111153_g7705171329283_cont_sun_m_1135_5_alg».proof.Proof.KernelValue
import proofs.«111153_g7705171329283_cont_sun_m_1135_5_alg».proof.Proof.RefValue
import proofs.«111153_g7705171329283_cont_sun_m_1135_5_alg».proof.Proof.Finite
import Idealize.ShloMosaic.Adequacy
import Idealize.ShloMosaic.Init

noncomputable section

namespace Cert.Proof

open Idealize.ShloMosaic Idealize.SL.Sem Idealize.ShloMosaic.ValueIdx

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten in idealizing the kernel. -/
theorem preserves : Cert.preserves_Kernel_KernelIdeal := trivial

/-- From memories that agree on the arguments, the parameters and centroids real, both programs end with the
    activations times the quantized weight matrix, entry by entry. -/
theorem algebraic : Cert.algebraic_KernelIdeal_ReferenceIdeal := by
  intro m ρ m' ρ' hpre hagree
  refine ⟨fun c => Cert.KernelIdeal.Gen.W4 (F := Ideal) m ρ c (Proc.devRef .tc Cert.KernelIdeal.main_v4),
    Cert.KernelIdeal.Gen.run_main (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨hr1, hr2⟩ := Cert.Finite.real_of_pre _ _ _ (hpre c)
  -- the real parameters and centroids
  let zf : Fin 4194304 → ℝ := fun n => (m ((c.tc : Thread Cert.KernelIdeal.nD Cert.KernelIdeal.τ).loc Cert.KernelIdeal.main_arg1) (ix1 n) : EReal).toReal
  let cf : Fin 512 → Fin 64 → ℝ := fun k d => (m ((c.tc : Thread Cert.KernelIdeal.nD Cert.KernelIdeal.τ).loc Cert.KernelIdeal.main_arg2) (ix2 k d) : EReal).toReal
  have hz : ∀ n : Fin 4194304, (m ((c.tc : Thread Cert.KernelIdeal.nD Cert.KernelIdeal.τ).loc Cert.KernelIdeal.main_arg1) (ix1 n) : EReal) = ((zf n : ℝ) : EReal) := fun n => by
    obtain ⟨r, hr⟩ := hr1 (ix1 n); show _ = ((EReal.toReal _ : ℝ) : EReal); rw [hr, EReal.toReal_coe]
  have hc : ∀ (k : Fin 512) (d : Fin 64), (m ((c.tc : Thread Cert.KernelIdeal.nD Cert.KernelIdeal.τ).loc Cert.KernelIdeal.main_arg2) (ix2 k d) : EReal) = ((cf k d : ℝ) : EReal) := fun k d => by
    obtain ⟨r, hr⟩ := hr2 (ix2 k d); show _ = ((EReal.toReal _ : ℝ) : EReal); rw [hr, EReal.toReal_coe]
  rw [Cert.ReferenceIdeal.Read.val_main_v32_eq, (hagree c).1, (hagree c).2.1, (hagree c).2.2]
  funext i
  obtain ⟨p, q, rfl⟩ : ∃ (p : Fin 8192) (q : Fin 2048), i = ix2 p q := ⟨i 0, i 1, eq_ix2 i⟩
  exact (Cert.ReferenceIdeal.Arrays.val_main_v32_apply_real zf cf _ _ _ hz hc p q).trans
    (Cert.KernelIdeal.Arrays.W4_main_v4_apply m ρ c zf cf hz hc p q).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
